-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S8x512x512 : Shape := ⟨3, ![8, 512, 512]⟩
abbrev S8x512 : Shape := ⟨2, ![8, 512]⟩
abbrev S512x4096 : Shape := ⟨2, ![512, 4096]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S8x512x512 .f32) (main_arg8 : FVec F S8x512 .f32) (main_arg9 : FVec F S512x4096 .f32) (main_arg10 : FVec F S512 .f32) (main_v33 : IVec S_ 1) : IVec S_ 1 :=
  let main_v34 : FVec F S8x512x512 .f32 := Host.absf main_arg7
  let main_cst_12 : FVec F S_ .f32 := constant S_ .f32 0x7F800000#32
  let main_v35 : FVec F S8x512x512 .f32 := broadcastInDim S8x512x512 ![] bcast_S_S8x512x512 main_cst_12
  let main_v36 : IVec S8x512x512 1 := cmpf .olt main_v34 main_v35
  let main_c_13 : IVec S_ 1 := constantI S_ 1 1#1
  let main_v37 : IVec S_ 1 := (fun x v => Host.reduce IntOp.andi x v reducesTo_S8x512x512_S_d0_1_2 h_S_) main_v36 main_c_13
  let main_v38 : IVec S_ 1 := andi main_v33 main_v37
  let main_v39 : FVec F S8x512 .f32 := Host.absf main_arg8
  let main_cst_14 : FVec F S_ .f32 := constant S_ .f32 0x7F800000#32
  let main_v40 : FVec F S8x512 .f32 := broadcastInDim S8x512 ![] bcast_S_S8x512 main_cst_14
  let main_v41 : IVec S8x512 1 := cmpf .olt main_v39 main_v40
  let main_c_15 : IVec S_ 1 := constantI S_ 1 1#1
  let main_v42 : IVec S_ 1 := (fun x v => Host.reduce IntOp.andi x v reducesTo_S8x512_S_d0_1 h_S_) main_v41 main_c_15
  let main_v43 : IVec S_ 1 := andi main_v38 main_v42
  let main_v44 : FVec F S512x4096 .f32 := Host.absf main_arg9
  let main_cst_16 : FVec F S_ .f32 := constant S_ .f32 0x7F800000#32
  let main_v45 : FVec F S512x4096 .f32 := broadcastInDim S512x4096 ![] bcast_S_S512x4096 main_cst_16
  let main_v46 : IVec S512x4096 1 := cmpf .olt main_v44 main_v45
  let main_c_17 : IVec S_ 1 := constantI S_ 1 1#1
  let main_v47 : IVec S_ 1 := (fun x v => Host.reduce IntOp.andi x v reducesTo_S512x4096_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S8x512 .f32) (main_arg5 : FVec F S8x512x512 .f32) (main_arg6 : FVec F S8x512 .f32) (main_arg7 : FVec F S8x512x512 .f32) (main_arg8 : FVec F S8x512 .f32) (main_arg9 : FVec F S512x4096 .f32) (main_arg10 : FVec F S512 .f32) (main_v13 : IVec S_ 1) (main_v16 : IVec S8x512x512 1) : IVec S_ 1 :=
  let main_c_5 : IVec S_ 1 := constantI S_ 1 1#1
  let main_v17 : IVec S_ 1 := (fun x v => Host.reduce IntOp.andi x v reducesTo_S8x512x512_S_d0_1_2 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S8x512x512 .f32 := Host.absf main_arg5
  let main_cst_8 : FVec F S_ .f32 := constant S_ .f32 0x7F800000#32
  let main_v25 : FVec F S8x512x512 .f32 := broadcastInDim S8x512x512 ![] bcast_S_S8x512x512 main_cst_8
  let main_v26 : IVec S8x512x512 1 := cmpf .olt main_v24 main_v25
  let main_c_9 : IVec S_ 1 := constantI S_ 1 1#1
  let main_v27 : IVec S_ 1 := (fun x v => Host.reduce IntOp.andi x v reducesTo_S8x512x512_S_d0_1_2 h_S_) main_v26 main_c_9
  let main_v28 : IVec S_ 1 := andi main_v23 main_v27
  let main_v29 : FVec F S8x512 .f32 := Host.absf main_arg6
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x512 .f32) (main_arg1 : FVec F S4x2048x512 .f32) (main_arg2 : FVec F S4x2048x512 .f32) (main_arg3 : FVec F S8x512x512 .f32) (main_arg4 : FVec F S8x512 .f32) (main_arg5 : FVec F S8x512x512 .f32) (main_arg6 : FVec F S8x512 .f32) (main_arg7 : FVec F S8x512x512 .f32) (main_arg8 : FVec F S8x512 .f32) (main_arg9 : FVec F S512x4096 .f32) (main_arg10 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S8x512x512 .f32 := Host.absf main_arg3
  let main_cst_4 : FVec F S_ .f32 := constant S_ .f32 0x7F800000#32
  let main_v15 : FVec F S8x512x512 .f32 := broadcastInDim S8x512x512 ![] bcast_S_S8x512x512 main_cst_4
  let main_v16 : IVec S8x512x512 1 := cmpf .olt main_v14 main_v15
  fn_part1 (F := F) main_arg4 main_arg5 main_arg6 main_arg7 main_arg8 main_arg9 main_arg10 main_v13 main_v16
-- ==== Kernel.lean ====
abbrev S4x2048x512 : Shape := ⟨3, ![4, 2048, 512]⟩
abbrev S8x512x512 : Shape := ⟨3, ![8, 512, 512]⟩
abbrev S8x512 : Shape := ⟨2, ![8, 512]⟩
abbrev S512x4096 : Shape := ⟨2, ![512, 4096]⟩
abbrev S512 : Shape := ⟨1, ![512]⟩
abbrev S512x8x512 : Shape := ⟨3, ![512, 8, 512]⟩
abbrev S1x4096 : Shape := ⟨2, ![1, 4096]⟩
abbrev S4096x512 : Shape := ⟨2, ![4096, 512]⟩
abbrev S1x512 : Shape := ⟨2, ![1, 512]⟩
abbrev S4x2048x4096 : Shape := ⟨3, ![4, 2048, 4096]⟩
abbrev S1x128x512 : Shape := ⟨3, ![1, 128, 512]⟩
abbrev S1x128x4096 : Shape := ⟨3, ![1, 128, 4096]⟩
abbrev S128x512 : Shape := ⟨2, ![128, 512]⟩
abbrev S128x4096 : Shape := ⟨2, ![128, 4096]⟩
abbrev S1x2048x512 : Shape := ⟨3, ![1, 2048, 512]⟩
abbrev S2048x512 : Shape := ⟨2, ![2048, 512]⟩
abbrev S512x512 : Shape := ⟨2, ![512, 512]⟩
abbrev S1x512x4096 : Shape := ⟨3, ![1, 512, 4096]⟩
abbrev S1x512x512 : Shape := ⟨3, ![1, 512, 512]⟩

abbrev nBuf : Space → Nat
  | .hbm => 31
  | .vmem => 32
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S8x512x512, .f32⟩
  | .hbm, ⟨4, _⟩ => ⟨S8x512, .f32⟩
  | .hbm, ⟨5, _⟩ => ⟨S8x512x512, .f32⟩
  | .hbm, ⟨6, _⟩ => ⟨S8x512, .f32⟩
  | .hbm, ⟨7, _⟩ => ⟨S8x512x512, .f32⟩
  | .hbm, ⟨8, _⟩ => ⟨S8x512, .f32⟩
  | .hbm, ⟨9, _⟩ => ⟨S512x4096, .f32⟩
  | .hbm, ⟨10, _⟩ => ⟨S512, .f32⟩
  | .hbm, ⟨11, _⟩ => ⟨S512x8x512, .f32⟩
  | .hbm, ⟨12, _⟩ => ⟨S512x4096, .f32⟩
  | .hbm, ⟨13, _⟩ => ⟨S512x4096, .bf16⟩
  | .hbm, ⟨14, _⟩ => ⟨S512x8x512, .f32⟩
  | .hbm, ⟨15, _⟩ => ⟨S512x4096, .f32⟩
  | .hbm, ⟨16, _⟩ => ⟨S512x4096, .bf16⟩
  | .hbm, ⟨17, _⟩ => ⟨S512x8x512, .f32⟩
  | .hbm, ⟨18, _⟩ => ⟨S512x4096, .f32⟩
  | .hbm, ⟨19, _⟩ => ⟨S512x4096, .bf16⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S4096x512, .f32⟩
  | .hbm, ⟨24, _⟩ => ⟨S4096x512, .bf16⟩
  | .hbm, ⟨25, _⟩ => ⟨S1x512, .f32⟩
  | .hbm, ⟨26, _⟩ => ⟨S4x2048x4096, .bf16⟩
  | .hbm, ⟨27, _⟩ => ⟨S4x2048x4096, .bf16⟩
  | .hbm, ⟨28, _⟩ => ⟨S4x2048x4096, .bf16⟩
  | .hbm, ⟨29, _⟩ => ⟨S4x2048x4096, .bf16⟩
  | .hbm, ⟨30, _⟩ => ⟨S4x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S512x4096, .bf16⟩
  | .local _ .vmem, ⟨7, _⟩ => ⟨S1x4096, .f32⟩
  | .local _ .vmem, ⟨8, _⟩ => ⟨S512x4096, .bf16⟩
  | .local _ .vmem, ⟨9, _⟩ => ⟨S1x4096, .f32⟩
  | .local _ .vmem, ⟨10, _⟩ => ⟨S512x4096, .bf16⟩
  | .local _ .vmem, ⟨11, _⟩ => ⟨S1x4096, .f32⟩
  | .local _ .vmem, ⟨12, _⟩ => ⟨S1x128x4096, .bf16⟩
  | .local _ .vmem, ⟨13, _⟩ => ⟨S1x128x4096, .bf16⟩
  | .local _ .vmem, ⟨14, _⟩ => ⟨S1x128x4096, .bf16⟩
  | .local _ .vmem, ⟨15, _⟩ => ⟨S1x128x4096, .bf16⟩
  | .local _ .vmem, ⟨16, _⟩ => ⟨S1x128x4096, .bf16⟩
  | .local _ .vmem, ⟨17, _⟩ => ⟨S1x128x4096, .bf16⟩
  | .local _ .vmem, ⟨18, _⟩ => ⟨S1x2048x512, .bf16⟩
  | .local _ .vmem, ⟨19, _⟩ => ⟨S1x2048x512, .bf16⟩
  | .local _ .vmem, ⟨20, _⟩ => ⟨S1x2048x512, .bf16⟩
  | .local _ .vmem, ⟨21, _⟩ => ⟨S1x2048x512, .bf16⟩
  | .local _ .vmem, ⟨22, _⟩ => ⟨S1x2048x512, .bf16⟩
  | .local _ .vmem, ⟨23, _⟩ => ⟨S1x2048x512, .bf16⟩
  | .local _ .vmem, ⟨24, _⟩ => ⟨S1x2048x512, .bf16⟩
  | .local _ .vmem, ⟨25, _⟩ => ⟨S1x2048x512, .bf16⟩
  | .local _ .vmem, ⟨26, _⟩ => ⟨S1x512x4096, .bf16⟩
  | .local _ .vmem, ⟨27, _⟩ => ⟨S1x512x4096, .bf16⟩
  | .local _ .vmem, ⟨28, _⟩ => ⟨S4096x512, .bf16⟩
  | .local _ .vmem, ⟨29, _⟩ => ⟨S1x512, .f32⟩
  | .local _ .vmem, ⟨30, _⟩ => ⟨S1x512x512, .f32⟩
  | .local _ .vmem, ⟨31, _⟩ => ⟨S1x512x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  transposes_S8x512x512_S512x8x512_2_0_1 : S8x512x512.Transposes [2, 0, 1] S512x8x512
  shapeCasts_S512x8x512_S512x4096 : S512x8x512.ShapeCasts S512x4096
  bitsLt_bf16_f32 : FTy.bits .bf16 < FTy.bits .f32
  shapeCasts_S8x512_S1x4096 : S8x512.ShapeCasts S1x4096
  transposes_S512x4096_S4096x512_1_0 : S512x4096.Transposes [1, 0] S4096x512
  shapeCasts_S512_S1x512 : S512.ShapeCasts S1x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  packedbf16_S1x128x4096_S1x128x4096_0_0_0 : (Rect.unit (s := S1x128x4096) ![0, 0, 0] S1x128x4096.size inb_S1x128x4096_S1x128x4096_0_0_0).PackedRows (EltTy.packing .bf16)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S128x512_S512x4096_S128x4096_1_0_0_1_n_n_wf : DotDims.WF S128x512 S512x4096 S128x4096 [1] [0] [0] [1] [] []
  dot_S2048x512_S2048x512_S512x512_0_0_1_1_n_n_wf : DotDims.WF S2048x512 S2048x512 S512x512 [0] [0] [1] [1] [] []
  dot_S2048x512_S512x512_S2048x512_1_0_0_1_n_n_wf : DotDims.WF S2048x512 S512x512 S2048x512 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x2048x512.size a
  hwx0_0 : ∀ i : grid0.Coords, EltTy.bits .f32 = 32 ∨ (Rect.block (s := S4x2048x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x2048x512.size a
  hwx0_1 : ∀ i : grid0.Coords, EltTy.bits .f32 = 32 ∨ (Rect.block (s := S4x2048x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S4x2048x512.size a
  hwx0_2 : ∀ i : grid0.Coords, EltTy.bits .f32 = 32 ∨ (Rect.block (s := S4x2048x512) S1x128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S512x4096.size a
  hwx0_5 : ∀ i : grid0.Coords, EltTy.bits .bf16 = 32 ∨ (Rect.block (s := S512x4096) S512x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x4096.size a ≤ S512x4096.size a
  hwx0_7 : ∀ i : grid0.Coords, EltTy.bits .bf16 = 32 ∨ (Rect.block (s := S512x4096) S512x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x4096.size a ≤ S4x2048x4096.size a
  hwx0_9 : ∀ i : grid0.Coords, EltTy.bits .bf16 = 32 ∨ (Rect.block (s := S4x2048x4096) S1x128x4096.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x4096.size a ≤ S4x2048x4096.size a
  hwx0_10 : ∀ i : grid0.Coords, EltTy.bits .bf16 = 32 ∨ (Rect.block (s := S4x2048x4096) S1x128x4096.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x4096.size a ≤ S4x2048x4096.size a
  hwx0_11 : ∀ i : grid0.Coords, EltTy.bits .bf16 = 32 ∨ (Rect.block (s := S4x2048x4096) S1x128x4096.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S4x2048x4096.size a
  hwx1_0 : ∀ i : grid1.Coords, EltTy.bits .bf16 = 32 ∨ (Rect.block (s := S4x2048x4096) S1x2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S4x2048x4096.size a
  hwx1_1 : ∀ i : grid1.Coords, EltTy.bits .bf16 = 32 ∨ (Rect.block (s := S4x2048x4096) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S4x2048x4096.size a
  hwx1_2 : ∀ i : grid1.Coords, EltTy.bits .bf16 = 32 ∨ (Rect.block (s := S4x2048x4096) S1x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x512.size a ≤ S4x2048x4096.size a
  hwx1_3 : ∀ i : grid1.Coords, EltTy.bits .bf16 = 32 ∨ (Rect.block (s := S4x2048x4096) S1x2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x4096.size a ≤ S4x2048x4096.size a
  hwx2_0 : ∀ i : grid2.Coords, EltTy.bits .bf16 = 32 ∨ (Rect.block (s := S4x2048x4096) S1x512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x512.size a
  hwx2_1 : ∀ i : grid2.Coords, EltTy.bits .bf16 = 32 ∨ (Rect.block (s := S4096x512) S4096x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S4x2048x512.size a
  hwx2_3 : ∀ i : grid2.Coords, EltTy.bits .f32 = 32 ∨ (Rect.block (s := S4x2048x512) S1x512x512.size (cc2_transform_3 i) (hinb2_3 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S1x128x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S1x128x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15_2) S1x128x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v15_0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15_2) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S1x512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4096x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x512 : Shape := ⟨3, ![4, 2048, 512]⟩
abbrev S8x512x512 : Shape := ⟨3, ![8, 512, 512]⟩
abbrev S8x512 : Shape := ⟨2, ![8, 512]⟩
abbrev S512x4096 : Shape := ⟨2, ![512, 4096]⟩
abbrev S512 : Shape := ⟨1, ![512]⟩
abbrev S8x512x4x2048 : Shape := ⟨4, ![8, 512, 4, 2048]⟩
abbrev S4x8x2048x512 : Shape := ⟨4, ![4, 8, 2048, 512]⟩
abbrev S1x8x1x512 : Shape := ⟨4, ![1, 8, 1, 512]⟩
abbrev S4x8x2048x2048 : Shape := ⟨4, ![4, 8, 2048, 2048]⟩
abbrev S_ : Shape := ⟨0, ![]⟩
abbrev S4x2048x8x512 : Shape := ⟨4, ![4, 2048, 8, 512]⟩
abbrev S4x2048x4096 : Shape := ⟨3, ![4, 2048, 4096]⟩
abbrev S1x1x512 : Shape := ⟨3, ![1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S8x512x512, .f32⟩
  | .hbm, ⟨4, _⟩ => ⟨S8x512, .f32⟩
  | .hbm, ⟨5, _⟩ => ⟨S8x512x512, .f32⟩
  | .hbm, ⟨6, _⟩ => ⟨S8x512, .f32⟩
  | .hbm, ⟨7, _⟩ => ⟨S8x512x512, .f32⟩
  | .hbm, ⟨8, _⟩ => ⟨S8x512, .f32⟩
  | .hbm, ⟨9, _⟩ => ⟨S512x4096, .f32⟩
  | .hbm, ⟨10, _⟩ => ⟨S512, .f32⟩
  | .hbm, ⟨11, _⟩ => ⟨S8x512x4x2048, .f32⟩
  | .hbm, ⟨12, _⟩ => ⟨S4x8x2048x512, .f32⟩
  | .hbm, ⟨13, _⟩ => ⟨S1x8x1x512, .f32⟩
  | .hbm, ⟨14, _⟩ => ⟨S4x8x2048x512, .f32⟩
  | .hbm, ⟨15, _⟩ => ⟨S4x8x2048x512, .f32⟩
  | .hbm, ⟨16, _⟩ => ⟨S8x512x4x2048, .f32⟩
  | .hbm, ⟨17, _⟩ => ⟨S4x8x2048x512, .f32⟩
  | .hbm, ⟨18, _⟩ => ⟨S1x8x1x512, .f32⟩
  | .hbm, ⟨19, _⟩ => ⟨S4x8x2048x512, .f32⟩
  | .hbm, ⟨20, _⟩ => ⟨S4x8x2048x512, .f32⟩
  | .hbm, ⟨21, _⟩ => ⟨S8x512x4x2048, .f32⟩
  | .hbm, ⟨22, _⟩ => ⟨S4x8x2048x512, .f32⟩
  | .hbm, ⟨23, _⟩ => ⟨S1x8x1x512, .f32⟩
  | .hbm, ⟨24, _⟩ => ⟨S4x8x2048x512, .f32⟩
  | .hbm, ⟨25, _⟩ => ⟨S4x8x2048x512, .f32⟩
  | .hbm, ⟨26, _⟩ => ⟨S4x8x2048x2048, .f32⟩
  | .hbm, ⟨27, _⟩ => ⟨S4x8x2048x512, .f32⟩
  | .hbm, ⟨28, _⟩ => ⟨S_, .f32⟩
  | .hbm, ⟨29, _⟩ => ⟨S4x8x2048x512, .f32⟩
  | .hbm, ⟨30, _⟩ => ⟨S4x8x2048x512, .f32⟩
  | .hbm, ⟨31, _⟩ => ⟨S4x2048x8x512, .f32⟩
  | .hbm, ⟨32, _⟩ => ⟨S4x2048x4096, .f32⟩
  | .hbm, ⟨33, _⟩ => ⟨S4x2048x512, .f32⟩
  | .hbm, ⟨34, _⟩ => ⟨S1x1x512, .f32⟩
  | .hbm, ⟨35, _⟩ => ⟨S4x2048x512, .f32⟩
  | .hbm, ⟨36, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  transposes_S8x512x4x2048_S4x8x2048x512_2_0_3_1 : S8x512x4x2048.Transposes [2, 0, 3, 1] S4x8x2048x512
  bcast_S8x512_S1x8x1x512_1_3 : S8x512.BroadcastsInDim S1x8x1x512 (![1, 3] : Fin 2 → Fin S1x8x1x512.rank)
  bcast_S1x8x1x512_S4x8x2048x512_0_1_2_3 : S1x8x1x512.BroadcastsInDim S4x8x2048x512 (![0, 1, 2, 3] : Fin 4 → Fin S4x8x2048x512.rank)
  bcast_S_S4x8x2048x512 : S_.BroadcastsInDim S4x8x2048x512 (![] : Fin 0 → Fin S4x8x2048x512.rank)
  transposes_S4x8x2048x512_S4x2048x8x512_0_2_1_3 : S4x8x2048x512.Transposes [0, 2, 1, 3] S4x2048x8x512
  shapeCasts_S4x2048x8x512_S4x2048x4096 : S4x2048x8x512.ShapeCasts S4x2048x4096
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  dot_S8x512x512_S4x2048x512_S8x512x4x2048_2_2_01_01_n_n_wf : DotDims.WF S8x512x512 S4x2048x512 S8x512x4x2048 [2] [2] [0, 1] [0, 1] [] []
  dot_S4x8x2048x512_S4x8x2048x512_S4x8x2048x2048_3_3_2_2_01_01_wf : DotDims.WF S4x8x2048x512 S4x8x2048x512 S4x8x2048x2048 [3] [3] [2] [2] [0, 1] [0, 1]
  dot_S4x8x2048x2048_S4x8x2048x512_S4x8x2048x512_3_2_2_3_01_01_wf : DotDims.WF S4x8x2048x2048 S4x8x2048x512 S4x8x2048x512 [3] [2] [2] [3] [0, 1] [0, 1]
  dot_S4x2048x4096_S512x4096_S4x2048x512_2_1_01_0_n_n_wf : DotDims.WF S4x2048x4096 S512x4096 S4x2048x512 [2] [1] [0, 1] [0] [] []

variable [Facts₀]

def dot_S8x512x512_S4x2048x512_S8x512x4x2048_2_2_01_01_n_n : DotDims S8x512x512 S4x2048x512 S8x512x4x2048 where
  lhsContracting := [2]
  rhsContracting := [2]
  lhsNonContracting := [0, 1]
  rhsNonContracting := [0, 1]
  lhsBatch := []
  rhsBatch := []
  wf := dot_S8x512x512_S4x2048x512_S8x512x4x2048_2_2_01_01_n_n_wf
def dot_S4x8x2048x512_S4x8x2048x512_S4x8x2048x2048_3_3_2_2_01_01 : DotDims S4x8x2048x512 S4x8x2048x512 S4x8x2048x2048 where
  lhsContracting := [3]
  rhsContracting := [3]
  lhsNonContracting := [2]
  rhsNonContracting := [2]
  lhsBatch := [0, 1]
  rhsBatch := [0, 1]
  wf := dot_S4x8x2048x512_S4x8x2048x512_S4x8x2048x2048_3_3_2_2_01_01_wf
def dot_S4x8x2048x2048_S4x8x2048x512_S4x8x2048x512_3_2_2_3_01_01 : DotDims S4x8x2048x2048 S4x8x2048x512 S4x8x2048x512 where
  lhsContracting := [3]
  rhsContracting := [2]
  lhsNonContracting := [2]
  rhsNonContracting := [3]
  lhsBatch := [0, 1]
  rhsBatch := [0, 1]
  wf := dot_S4x8x2048x2048_S4x8x2048x512_S4x8x2048x512_3_2_2_3_01_01_wf
def dot_S4x2048x4096_S512x4096_S4x2048x512_2_1_01_0_n_n : DotDims S4x2048x4096 S512x4096 S4x2048x512 where
  lhsContracting := [2]
  rhsContracting := [1]
  lhsNonContracting := [0, 1]
  rhsNonContracting := [0]
  lhsBatch := []
  rhsBatch := []
  wf := dot_S4x2048x4096_S512x4096_S4x2048x512_2_1_01_0_n_n_wf

class Facts : Prop extends Facts₀ where

variable [Facts]
-- ==== Proof.Spec.lean ====
/-
  The mathematics of the certificate, stated once over plain arrays of extended reals.

  An input row x[b,s,·] of 512 numbers is projected by eight per-head weight matrices W[h,·,·] (512 × 512) and biases
  b[h,·]; the eight projections of a row are laid side by side in a row of 4096 numbers, column j = 512 h + o holding
  head h = j / 512, feature o = j % 512. From the three projected arrays Q, K, V the attention core WITHOUT softmax
  is, head by head, (Q Kᵀ) V / 512; the heads, still side by side, then go through one more linear map.

  The kernel computes the core as Q (Kᵀ V · 2⁻⁹): the same number whenever all entries are real, by associativity
  and distributivity of the reals (the extended reals are not distributive at the infinities, so the law is proved
  for arrays of reals).
-/
import Idealize.ShloMosaic.PureOps.Ideal
import Idealize.ShloMosaic.Lib.ValueIdx

noncomputable section

namespace Cert.Spec

open Idealize.ShloMosaic Idealize.ShloMosaic.ValueIdx

/-- The shapes, as literals. -/
abbrev A3 : Shape := ⟨3, ![4, 2048, 512]⟩
abbrev W3 : Shape := ⟨3, ![8, 512, 512]⟩
abbrev B2 : Shape := ⟨2, ![8, 512]⟩
abbrev P3 : Shape := ⟨3, ![4, 2048, 4096]⟩
abbrev O2 : Shape := ⟨2, ![512, 4096]⟩
abbrev O1 : Shape := ⟨1, ![512]⟩
abbrev C2 : Shape := ⟨2, ![512, 4096]⟩
abbrev R2 : Shape := ⟨2, ![1, 4096]⟩
abbrev T2 : Shape := ⟨2, ![4096, 512]⟩
abbrev R1 : Shape := ⟨2, ![1, 512]⟩

/-- The head of a column of the side-by-side layout. -/
def hd (j : Fin 4096) : Fin 8 := ⟨j.val / 512, by have := j.isLt; omega⟩
/-- The feature of a column within its head. -/
def wi (j : Fin 4096) : Fin 512 := ⟨j.val % 512, Nat.mod_lt _ (by norm_num)⟩
/-- Column `512 h + e` of the side-by-side layout. -/
def col (h : Fin 8) (e : Fin 512) : Fin 4096 := ⟨512 * h.val + e.val, by have := h.isLt; have := e.isLt; omega⟩

theorem hd_col (h : Fin 8) (e : Fin 512) : hd (col h e) = h := by
  apply Fin.ext; show (512 * h.val + e.val) / 512 = h.val; have := e.isLt; omega
theorem wi_col (h : Fin 8) (e : Fin 512) : wi (col h e) = e := by
  apply Fin.ext; show (512 * h.val + e.val) % 512 = e.val; have := e.isLt; omega
theorem col_hd_wi (j : Fin 4096) : col (hd j) (wi j) = j := by
  apply Fin.ext; show 512 * (j.val / 512) + j.val % 512 = j.val; omega

/-! ## The kernel's three stages, over the operand layouts its regions read -/

/-- A row of 512 times a 512 × 4096 matrix, plus a row of biases. -/
def projK (x : A3.Idx → EReal) (Wc : C2.Idx → EReal) (bc : R2.Idx → EReal) : P3.Idx → EReal :=
  fun i => (∑ e : Fin 512, x (ix3 (i 0) (i 1) e) * Wc (ix2 e (i 2))) + bc (ix2 0 (i 2))

/-- Head by head: Q times (Kᵀ V scaled by `c`). -/
def attnK (c : EReal) (Q K V : P3.Idx → EReal) : P3.Idx → EReal :=
  fun i => ∑ e : Fin 512, Q (ix3 (i 0) (i 1) (col (hd (i 2)) e)) *
    ((∑ s : Fin 2048, K (ix3 (i 0) s (col (hd (i 2)) e)) * V (ix3 (i 0) s (i 2))) * c)

/-- A row of 4096 times a 4096 × 512 matrix, plus a row of biases. -/
def outK (X : P3.Idx → EReal) (Wt : T2.Idx → EReal) (bt : R1.Idx → EReal) : A3.Idx → EReal :=
  fun i => (∑ j : Fin 4096, X (ix3 (i 0) (i 1) j) * Wt (ix2 j (i 2))) + bt (ix2 0 (i 2))

/-! ## The host's re-layouts of the weights -/

/-- The eight per-head matrices W[h,o,e] side by side: entry (e, 512 h + o). -/
def catW (W : W3.Idx → EReal) : C2.Idx → EReal := fun i => W (ix3 (hd (i 1)) (wi (i 1)) (i 0))
/-- The eight per-head bias rows side by side. -/
def catB (b : B2.Idx → EReal) : R2.Idx → EReal := fun i => b (ix2 (hd (i 1)) (wi (i 1)))
/-- The output weight transposed. -/
def trW (W : O2.Idx → EReal) : T2.Idx → EReal := fun i => W (ix2 (i 1) (i 0))
/-- The output bias as a row. -/
def rowB (b : O1.Idx → EReal) : R1.Idx → EReal := fun i => b (ix1 (i 1))

/-! ## The reference's attention core -/

/-- Head by head: ((Q Kᵀ) V) divided by `d`. -/
def attnR (d : EReal) (Q K V : P3.Idx → EReal) : P3.Idx → EReal :=
  fun i => Ideal.div (∑ k : Fin 2048, (∑ e : Fin 512, Q (ix3 (i 0) (i 1) (col (hd (i 2)) e)) * K (ix3 (i 0) k (col (hd (i 2)) e))) *
    V (ix3 (i 0) k (i 2))) d

/-- What the kernel's program computes from the eleven arguments. -/
def kernelResult (c : EReal) (q k v : A3.Idx → EReal) (Wq : W3.Idx → EReal) (bq : B2.Idx → EReal) (Wk : W3.Idx → EReal) (bk : B2.Idx → EReal)
    (Wv : W3.Idx → EReal) (bv : B2.Idx → EReal) (Wo : O2.Idx → EReal) (bo : O1.Idx → EReal) : A3.Idx → EReal :=
  outK (attnK c (projK q (catW Wq) (catB bq)) (projK k (catW Wk) (catB bk)) (projK v (catW Wv) (catB bv))) (trW Wo) (rowB bo)

/-- What the reference computes from the eleven arguments. -/
def referenceResult (d : EReal) (q k v : A3.Idx → EReal) (Wq : W3.Idx → EReal) (bq : B2.Idx → EReal) (Wk : W3.Idx → EReal) (bk : B2.Idx → EReal)
    (Wv : W3.Idx → EReal) (bv : B2.Idx → EReal) (Wo : O2.Idx → EReal) (bo : O1.Idx → EReal) : A3.Idx → EReal :=
  outK (attnR d (projK q (catW Wq) (catB bq)) (projK k (catW Wk) (catB bk)) (projK v (catW Wv) (catB bv))) (trW Wo) (rowB bo)

/-- Every entry of an array is a real number. -/
def IsReal {S : Shape} (x : S.Idx → EReal) : Prop := ∀ i, ∃ r : ℝ, x i = (r : EReal)

end Cert.Spec

end
-- ==== Proof.Region0.lean ====
import proofs.«142515_j15685220565779_1_alg».proof.Proof.Gen.KernelIdeal.Frame
import proofs.«142515_j15685220565779_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The contraction's operand indices, axis by axis -/

theorem lhs_proj_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem lhs_proj_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem rhs_proj_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem rhs_proj_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- The 128 × 512 by 512 × 4096 product into a zero accumulator, read at row r and column j: the sum over the
    contracted axis of the products. -/
theorem matmul_at (a : FVec Ideal S128x512 .bf16) (w : FVec Ideal S512x4096 .bf16) (r : Fin 128) (j : Fin 4096) :
    matmul dot_S128x512_S512x4096_S128x4096_1_0_0_1_n_n none a w (constant (F := Ideal) S128x4096 .f32 0x00000000#32) (ix2 r j)
      = ∑ e : Fin 512, a (ix2 r e) * w (ix2 e j) := by
  refine (Ideal.matmul_constant_zero_apply dot_S128x512_S512x4096_S128x4096_1_0_0_1_n_n none a w (ix2 r j)).trans ?_
  rw [← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 r j) ((contrEquiv1 dot_S128x512_S512x4096_S128x4096_1_0_0_1_n_n 512 rfl rfl).symm k) = ix2 r k := funext fun ax => Fin.ext (by
    match ax with
    | ⟨0, _⟩ => exact lhs_proj_0 _ _
    | ⟨1, _⟩ => exact (lhs_proj_1 _ _).trans hk)
  have er : dot_S128x512_S512x4096_S128x4096_1_0_0_1_n_n.rhsIdx (ix2 r j) ((contrEquiv1 dot_S128x512_S512x4096_S128x4096_1_0_0_1_n_n 512 rfl rfl).symm k) = ix2 k j := funext fun ax => Fin.ext (by
    match ax with
    | ⟨0, _⟩ => exact (rhs_proj_0 _ _).trans hk
    | ⟨1, _⟩ => exact rhs_proj_1 _ _)
  rw [el, er]

/-- One projection's arithmetic on a block: the activations with their unit axis dropped, times the weight matrix
    into a zero accumulator, plus the bias row spread over all rows. -/
def rowProj (x : Vec Ideal S1x128x512 .f32) (W : Vec Ideal S512x4096 .bf16) (b : Vec Ideal S1x4096 .f32) : FVec Ideal S128x4096 .f32 :=
  addf (matmul dot_S128x512_S512x4096_S128x4096_1_0_0_1_n_n none
        (truncf .bf16 (shapeCast S128x512 x shapeCasts_S1x128x512_S128x512 : FVec Ideal S128x512 .f32) bitsLt_bf16_f32)
        (shapeCast S512x4096 W shapeCasts_S512x4096_S512x4096 : FVec Ideal S512x4096 .bf16)
        (constant (F := Ideal) S128x4096 .f32 0x00000000#32))
      (broadcastTo S128x4096 (shapeCast S1x4096 b shapeCasts_S1x4096_S1x4096 : FVec Ideal S1x4096 .f32) broadcasts_S1x4096_S128x4096)

/-- At row r and column j it is the row of 512 times column j of the weights, plus the bias at j. -/
theorem rowProj_at (x : Vec Ideal S1x128x512 .f32) (W : Vec Ideal S512x4096 .bf16) (b : Vec Ideal S1x4096 .f32)
    (r : Fin 128) (j : Fin 4096) :
    rowProj x W b (ix2 r j) = (∑ e : Fin 512, x (ix3 (0 : Fin 1) r e) * W (ix2 e j)) + b (ix2 (0 : Fin 1) j) := by
  unfold rowProj
  rw [addf_apply]
  refine congrArg₂ (· + ·) ?_ ?_
  · refine (matmul_at _ _ r j).trans ?_
    refine Finset.sum_congr rfl fun e _ => ?_
    rw [truncf_apply, shapeCast_1ab_ab_apply, shapeCast_self]
  · rw [broadcastTo_1b_ab_apply, shapeCast_self]

/-- The first output's payload at an index. -/
theorem pay9_at (x : Vec Ideal S1x128x512 .f32) (W : Vec Ideal S512x4096 .bf16) (b : Vec Ideal S1x4096 .f32)
    (u : Fin 1) (r : Fin 128) (j : Fin 4096) :
    k0_pay1 (k0_pay6 x W b) (ix3 u r j) = (∑ e : Fin 512, x (ix3 (0 : Fin 1) r e) * W (ix2 e j)) + b (ix2 (0 : Fin 1) j) := by
  show shapeCast S1x128x4096 (truncf .bf16 (rowProj x W b) bitsLt_bf16_f32 : FVec Ideal S128x4096 .bf16) shapeCasts_S128x4096_S1x128x4096 (ix3 u r j) = _
  rw [shapeCast_ab_1ab_apply, truncf_apply]
  exact rowProj_at x W b r j

/-- The second output's payload at an index. -/
theorem pay10_at (x : Vec Ideal S1x128x512 .f32) (W : Vec Ideal S512x4096 .bf16) (b : Vec Ideal S1x4096 .f32)
    (u : Fin 1) (r : Fin 128) (j : Fin 4096) :
    k0_pay2 (k0_pay4 x W b) (ix3 u r j) = (∑ e : Fin 512, x (ix3 (0 : Fin 1) r e) * W (ix2 e j)) + b (ix2 (0 : Fin 1) j) := by
  show shapeCast S1x128x4096 (truncf .bf16 (rowProj x W b) bitsLt_bf16_f32 : FVec Ideal S128x4096 .bf16) shapeCasts_S128x4096_S1x128x4096 (ix3 u r j) = _
  rw [shapeCast_ab_1ab_apply, truncf_apply]
  exact rowProj_at x W b r j

/-- The third output's payload at an index. -/
theorem pay11_at (x : Vec Ideal S1x128x512 .f32) (W : Vec Ideal S512x4096 .bf16) (b : Vec Ideal S1x4096 .f32)
    (u : Fin 1) (r : Fin 128) (j : Fin 4096) :
    k0_pay3 (k0_pay5 x W b) (ix3 u r j) = (∑ e : Fin 512, x (ix3 (0 : Fin 1) r e) * W (ix2 e j)) + b (ix2 (0 : Fin 1) j) := by
  show shapeCast S1x128x4096 (truncf .bf16 (rowProj x W b) bitsLt_bf16_f32 : FVec Ideal S128x4096 .bf16) shapeCasts_S128x4096_S1x128x4096 (ix3 u r j) = _
  rw [shapeCast_ab_1ab_apply, truncf_apply]
  exact rowProj_at x W b r j

/-! ## From the blocks to the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-! ### The first output (from the first activations, weights and bias) -/

/-- The index maps over the grid: the activations' block moves with the output's on the batch and row axes, the
    weights and the bias are one whole block, and the output's block index on the column axis is 0. -/
theorem idx_facts9 : ∀ t : Fin cfg0.N,
    win0_0.index t (0 : Fin 3) = win0_9.index t (0 : Fin 3) ∧ win0_0.index t (1 : Fin 3) = win0_9.index t (1 : Fin 3)
    ∧ win0_0.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_9.index t (2 : Fin 3) = 0 ∧ win0_9.index t (0 : Fin 3) ≤ 3 ∧ win0_9.index t (1 : Fin 3) ≤ 15 :=
  (by decide +kernel : ∀ t : Fin grid0.N, _)

/-- The activations' block at a point, read at (0, r, e): the array at the output block's batch and row, feature e. -/
theorem x9_read (V : (c : Dev nD) → (b : Ref sig .tc) → Buf (Elt Ideal) ((c : Thread nD τ).loc b)) (c : Dev nD) (t : Fin cfg0.N)
    (u : Fin 1) (r : Fin 128) (j : Fin 4096) (e : Fin 512) :
    iblk0 V c 0 t (ix3 (0 : Fin 1) r e)
      = V c main_arg0 (ix3 (((cfg0.win 9).blk t).view.emb (ix3 u r j) 0) (((cfg0.win 9).blk t).view.emb (ix3 u r j) 1) e) := by
  obtain ⟨e0, e1, e2, e3, e4, e5, e6, e7, e8, e9⟩ := idx_facts9 t
  show V c main_arg0 (((cfg0.win 0).blk t).view.emb (ix3 (0 : Fin 1) r e)) = _
  refine congrArg (V c main_arg0) (funext fun a => Fin.ext ?_)
  match a with
  | ⟨0, _⟩ => show win0_0.index t (0 : Fin 3) * 1 + 1 * 0 = win0_9.index t (0 : Fin 3) * 1 + 1 * u.val; have := u.isLt; omega
  | ⟨1, _⟩ => show win0_0.index t (1 : Fin 3) * 128 + 1 * r.val = win0_9.index t (1 : Fin 3) * 128 + 1 * r.val; omega
  | ⟨2, _⟩ => show win0_0.index t (2 : Fin 3) * 512 + 1 * e.val = e.val; omega

/-- The weights' block is the whole matrix. -/
theorem w9_read (V : (c : Dev nD) → (b : Ref sig .tc) → Buf (Elt Ideal) ((c : Thread nD τ).loc b)) (c : Dev nD) (t : Fin cfg0.N)
    (u : Fin 1) (r : Fin 128) (j : Fin 4096) (e : Fin 512) :
    iblk0 V c 3 t (ix2 e j) = V c main_v2 (ix2 e (((cfg0.win 9).blk t).view.emb (ix3 u r j) 2)) := by
  obtain ⟨e0, e1, e2, e3, e4, e5, e6, e7, e8, e9⟩ := idx_facts9 t
  show V c main_v2 (((cfg0.win 3).blk t).view.emb (ix2 e j)) = _
  refine congrArg (V c main_v2) (funext fun a => Fin.ext ?_)
  match a with
  | ⟨0, _⟩ => show win0_3.index t (0 : Fin 2) * 512 + 1 * e.val = e.val; omega
  | ⟨1, _⟩ => show win0_3.index t (1 : Fin 2) * 4096 + 1 * j.val = win0_9.index t (2 : Fin 3) * 4096 + 1 * j.val; omega

/-- The bias's block is the whole row. -/
theorem b9_read (V : (c : Dev nD) → (b : Ref sig .tc) → Buf (Elt Ideal) ((c : Thread nD τ).loc b)) (c : Dev nD) (t : Fin cfg0.N)
    (u : Fin 1) (r : Fin 128) (j : Fin 4096) :
    iblk0 V c 4 t (ix2 (0 : Fin 1) j) = V c main_v9 (ix2 (0 : Fin 1) (((cfg0.win 9).blk t).view.emb (ix3 u r j) 2)) := by
  obtain ⟨e0, e1, e2, e3, e4, e5, e6, e7, e8, e9⟩ := idx_facts9 t
  show V c main_v9 (((cfg0.win 4).blk t).view.emb (ix2 (0 : Fin 1) j)) = _
  refine congrArg (V c main_v9) (funext fun a => Fin.ext ?_)
  match a with
  | ⟨0, _⟩ => show win0_4.index t (0 : Fin 2) * 1 + 1 * 0 = 0; omega
  | ⟨1, _⟩ => show win0_4.index t (1 : Fin 2) * 4096 + 1 * j.val = win0_9.index t (2 : Fin 3) * 4096 + 1 * j.val; omega

/-- What a point writes back is its block of the whole-array projection. -/
theorem flushed9_eq (V : (c : Dev nD) → (b : Ref sig .tc) → Buf (Elt Ideal) ((c : Thread nD τ).loc b)) (c : Dev nD) (t : Fin cfg0.N) :
    (dat0 (F := Ideal) V c).flushed 9 t = ((cfg0.win 9).blk t).view.read (Elt Ideal) (projK (V c main_arg0) (V c main_v2) (V c main_v9)) := by
  show (cfg0.win 9).cut (grid0.coords t) ((dat0 (F := Ideal) V c).after 9 t) = _
  rw [after0_9]
  unfold out0_9
  rw [View.canon_unit_zero hz3]
  simp only [View.ld_unit_zero (S := S1x128x512) hz3, View.ld_unit_zero (S := S512x4096) hz2, View.ld_unit_zero (S := S1x4096) hz2]
  funext y
  show k0_pay1 (k0_pay6 (iblk0 V c 0 t) (iblk0 V c 3 t) (iblk0 V c 4 t)) y
      = projK (V c main_arg0) (V c main_v2) (V c main_v9) (((cfg0.win 9).blk t).view.emb y)
  obtain ⟨u, r, j, rfl⟩ : ∃ (u : Fin 1) (r : Fin 128) (j : Fin 4096), y = ix3 u r j := ⟨y 0, y 1, y 2, eq_ix3 y⟩
  refine (pay9_at _ _ _ u r j).trans ?_
  unfold projK
  exact congrArg₂ (· + ·) (Finset.sum_congr rfl fun e _ => congrArg₂ (· * ·) (x9_read V c t u r j e) (w9_read V c t u r j e)) (b9_read V c t u r j)

/-- An index of the output array is in a point's block iff each coordinate is in the block's range on its axis. -/
theorem mem_blk9 (t : Fin cfg0.N) (i : S4x2048x4096.Idx) :
    i ∈ ((cfg0.win 9).blk t).view.set ↔ ∀ a : Fin 3, win0_9.index t a * S1x128x4096.size a ≤ (i a).val ∧ (i a).val < win0_9.index t a * S1x128x4096.size a + S1x128x4096.size a := by
  show i ∈ ((View.whole main_v15_0).slice (win0_9.rect t)).set ↔ _
  rw [View.set_slice_whole, Rect.mem_set_unit]
  exact Iff.rfl

/-- Every (batch, row-block) pair is some point's block index. -/
theorem idx_onto9 : ∀ (q0 : Fin 4) (q1 : Fin 16), ∃ t : Fin cfg0.N, win0_9.index t = ![q0.val, q1.val, 0] :=
  (by decide +kernel : ∀ (q0 : Fin 4) (q1 : Fin 16), ∃ t : Fin grid0.N, win0_9.index t = ![q0.val, q1.val, 0])

/-- The blocks tile the output array: batch b, row s lies in the block of batch b and row-block s / 128. -/
theorem cover9 (i : S4x2048x4096.Idx) : ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 4096 := (i 2).isLt
  obtain ⟨t, ht⟩ := idx_onto9 ⟨(i 0).val, hi0⟩ ⟨(i 1).val / 128, by omega⟩
  have q0 : win0_9.index t (0 : Fin 3) = (i 0).val := congrFun ht 0
  have q1 : win0_9.index t (1 : Fin 3) = (i 1).val / 128 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 128 ≤ (i 1).val ∧ (i 1).val < win0_9.index t (1 : Fin 3) * 128 + 128; omega
  | ⟨2, _⟩ => show win0_9.index t (2 : Fin 3) * 4096 ≤ (i 2).val ∧ (i 2).val < win0_9.index t (2 : Fin 3) * 4096 + 4096; omega

/-- The first region's three output arrays, whatever the buffers hold when it is entered. -/
theorem final0_9 (V : (c : Dev nD) → (b : Ref sig .tc) → Buf (Elt Ideal) ((c : Thread nD τ).loc b)) (c : Dev nD) :
    (dat0 (F := Ideal) V c).arrAt 9 cfg0.N = projK (V c main_arg0) (V c main_v2) (V c main_v9) :=
  (dat0 (F := Ideal) V c).arrAt_eq_of_cover 9 (projK (V c main_arg0) (V c main_v2) (V c main_v9)) (fun t _ => flushed9_eq V c t) cover9

/-! ### The second output: the same argument over its own windows -/

/-- The index maps over the grid: the activations' block moves with the output's on the batch and row axes, the
    weights and the bias are one whole block, and the output's block index on the column axis is 0. -/
theorem idx_facts10 : ∀ t : Fin cfg0.N,
    win0_1.index t (0 : Fin 3) = win0_10.index t (0 : Fin 3) ∧ win0_1.index t (1 : Fin 3) = win0_10.index t (1 : Fin 3)
    ∧ win0_1.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_10.index t (2 : Fin 3) = 0 ∧ win0_10.index t (0 : Fin 3) ≤ 3 ∧ win0_10.index t (1 : Fin 3) ≤ 15 :=
  (by decide +kernel : ∀ t : Fin grid0.N, _)

/-- The activations' block at a point, read at (0, r, e): the array at the output block's batch and row, feature e. -/
theorem x10_read (V : (c : Dev nD) → (b : Ref sig .tc) → Buf (Elt Ideal) ((c : Thread nD τ).loc b)) (c : Dev nD) (t : Fin cfg0.N)
    (u : Fin 1) (r : Fin 128) (j : Fin 4096) (e : Fin 512) :
    iblk0 V c 1 t (ix3 (0 : Fin 1) r e)
      = V c main_arg1 (ix3 (((cfg0.win 10).blk t).view.emb (ix3 u r j) 0) (((cfg0.win 10).blk t).view.emb (ix3 u r j) 1) e) := by
  obtain ⟨e0, e1, e2, e3, e4, e5, e6, e7, e8, e9⟩ := idx_facts10 t
  show V c main_arg1 (((cfg0.win 1).blk t).view.emb (ix3 (0 : Fin 1) r e)) = _
  refine congrArg (V c main_arg1) (funext fun a => Fin.ext ?_)
  match a with
  | ⟨0, _⟩ => show win0_1.index t (0 : Fin 3) * 1 + 1 * 0 = win0_10.index t (0 : Fin 3) * 1 + 1 * u.val; have := u.isLt; omega
  | ⟨1, _⟩ => show win0_1.index t (1 : Fin 3) * 128 + 1 * r.val = win0_10.index t (1 : Fin 3) * 128 + 1 * r.val; omega
  | ⟨2, _⟩ => show win0_1.index t (2 : Fin 3) * 512 + 1 * e.val = e.val; omega

/-- The weights' block is the whole matrix. -/
theorem w10_read (V : (c : Dev nD) → (b : Ref sig .tc) → Buf (Elt Ideal) ((c : Thread nD τ).loc b)) (c : Dev nD) (t : Fin cfg0.N)
    (u : Fin 1) (r : Fin 128) (j : Fin 4096) (e : Fin 512) :
    iblk0 V c 5 t (ix2 e j) = V c main_v5 (ix2 e (((cfg0.win 10).blk t).view.emb (ix3 u r j) 2)) := by
  obtain ⟨e0, e1, e2, e3, e4, e5, e6, e7, e8, e9⟩ := idx_facts10 t
  show V c main_v5 (((cfg0.win 5).blk t).view.emb (ix2 e j)) = _
  refine congrArg (V c main_v5) (funext fun a => Fin.ext ?_)
  match a with
  | ⟨0, _⟩ => show win0_5.index t (0 : Fin 2) * 512 + 1 * e.val = e.val; omega
  | ⟨1, _⟩ => show win0_5.index t (1 : Fin 2) * 4096 + 1 * j.val = win0_10.index t (2 : Fin 3) * 4096 + 1 * j.val; omega

/-- The bias's block is the whole row. -/
theorem b10_read (V : (c : Dev nD) → (b : Ref sig .tc) → Buf (Elt Ideal) ((c : Thread nD τ).loc b)) (c : Dev nD) (t : Fin cfg0.N)
    (u : Fin 1) (r : Fin 128) (j : Fin 4096) :
    iblk0 V c 6 t (ix2 (0 : Fin 1) j) = V c main_v10 (ix2 (0 : Fin 1) (((cfg0.win 10).blk t).view.emb (ix3 u r j) 2)) := by
  obtain ⟨e0, e1, e2, e3, e4, e5, e6, e7, e8, e9⟩ := idx_facts10 t
  show V c main_v10 (((cfg0.win 6).blk t).view.emb (ix2 (0 : Fin 1) j)) = _
  refine congrArg (V c main_v10) (funext fun a => Fin.ext ?_)
  match a with
  | ⟨0, _⟩ => show win0_6.index t (0 : Fin 2) * 1 + 1 * 0 = 0; omega
  | ⟨1, _⟩ => show win0_6.index t (1 : Fin 2) * 4096 + 1 * j.val = win0_10.index t (2 : Fin 3) * 4096 + 1 * j.val; omega

/-- What a point writes back is its block of the whole-array projection. -/
theorem flushed10_eq (V : (c : Dev nD) → (b : Ref sig .tc) → Buf (Elt Ideal) ((c : Thread nD τ).loc b)) (c : Dev nD) (t : Fin cfg0.N) :
    (dat0 (F := Ideal) V c).flushed 10 t = ((cfg0.win 10).blk t).view.read (Elt Ideal) (projK (V c main_arg1) (V c main_v5) (V c main_v10)) := by
  show (cfg0.win 10).cut (grid0.coords t) ((dat0 (F := Ideal) V c).after 10 t) = _
  rw [after0_10]
  unfold out0_10
  rw [View.canon_unit_zero hz3]
  simp only [View.ld_unit_zero (S := S1x128x512) hz3, View.ld_unit_zero (S := S512x4096) hz2, View.ld_unit_zero (S := S1x4096) hz2]
  funext y
  show k0_pay2 (k0_pay4 (iblk0 V c 1 t) (iblk0 V c 5 t) (iblk0 V c 6 t)) y
      = projK (V c main_arg1) (V c main_v5) (V c main_v10) (((cfg0.win 10).blk t).view.emb y)
  obtain ⟨u, r, j, rfl⟩ : ∃ (u : Fin 1) (r : Fin 128) (j : Fin 4096), y = ix3 u r j := ⟨y 0, y 1, y 2, eq_ix3 y⟩
  refine (pay10_at _ _ _ u r j).trans ?_
  unfold projK
  exact congrArg₂ (· + ·) (Finset.sum_congr rfl fun e _ => congrArg₂ (· * ·) (x10_read V c t u r j e) (w10_read V c t u r j e)) (b10_read V c t u r j)

/-- An index of the output array is in a point's block iff each coordinate is in the block's range on its axis. -/
theorem mem_blk10 (t : Fin cfg0.N) (i : S4x2048x4096.Idx) :
    i ∈ ((cfg0.win 10).blk t).view.set ↔ ∀ a : Fin 3, win0_10.index t a * S1x128x4096.size a ≤ (i a).val ∧ (i a).val < win0_10.index t a * S1x128x4096.size a + S1x128x4096.size a := by
  show i ∈ ((View.whole main_v15_1).slice (win0_10.rect t)).set ↔ _
  rw [View.set_slice_whole, Rect.mem_set_unit]
  exact Iff.rfl

/-- Every (batch, row-block) pair is some point's block index. -/
theorem idx_onto10 : ∀ (q0 : Fin 4) (q1 : Fin 16), ∃ t : Fin cfg0.N, win0_10.index t = ![q0.val, q1.val, 0] :=
  (by decide +kernel : ∀ (q0 : Fin 4) (q1 : Fin 16), ∃ t : Fin grid0.N, win0_10.index t = ![q0.val, q1.val, 0])

/-- The blocks tile the output array: batch b, row s lies in the block of batch b and row-block s / 128. -/
theorem cover10 (i : S4x2048x4096.Idx) : ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 4096 := (i 2).isLt
  obtain ⟨t, ht⟩ := idx_onto10 ⟨(i 0).val, hi0⟩ ⟨(i 1).val / 128, by omega⟩
  have q0 : win0_10.index t (0 : Fin 3) = (i 0).val := congrFun ht 0
  have q1 : win0_10.index t (1 : Fin 3) = (i 1).val / 128 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 128 ≤ (i 1).val ∧ (i 1).val < win0_10.index t (1 : Fin 3) * 128 + 128; omega
  | ⟨2, _⟩ => show win0_10.index t (2 : Fin 3) * 4096 ≤ (i 2).val ∧ (i 2).val < win0_10.index t (2 : Fin 3) * 4096 + 4096; omega

theorem final0_10 (V : (c : Dev nD) → (b : Ref sig .tc) → Buf (Elt Ideal) ((c : Thread nD τ).loc b)) (c : Dev nD) :
    (dat0 (F := Ideal) V c).arrAt 10 cfg0.N = projK (V c main_arg1) (V c main_v5) (V c main_v10) :=
  (dat0 (F := Ideal) V c).arrAt_eq_of_cover 10 (projK (V c main_arg1) (V c main_v5) (V c main_v10)) (fun t _ => flushed10_eq V c t) cover10

/-! ### The third output: the same argument over its own windows -/

/-- The index maps over the grid: the activations' block moves with the output's on the batch and row axes, the
    weights and the bias are one whole block, and the output's block index on the column axis is 0. -/
theorem idx_facts11 : ∀ t : Fin cfg0.N,
    win0_2.index t (0 : Fin 3) = win0_11.index t (0 : Fin 3) ∧ win0_2.index t (1 : Fin 3) = win0_11.index t (1 : Fin 3)
    ∧ win0_2.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_11.index t (2 : Fin 3) = 0 ∧ win0_11.index t (0 : Fin 3) ≤ 3 ∧ win0_11.index t (1 : Fin 3) ≤ 15 :=
  (by decide +kernel : ∀ t : Fin grid0.N, _)

/-- The activations' block at a point, read at (0, r, e): the array at the output block's batch and row, feature e. -/
theorem x11_read (V : (c : Dev nD) → (b : Ref sig .tc) → Buf (Elt Ideal) ((c : Thread nD τ).loc b)) (c : Dev nD) (t : Fin cfg0.N)
    (u : Fin 1) (r : Fin 128) (j : Fin 4096) (e : Fin 512) :
    iblk0 V c 2 t (ix3 (0 : Fin 1) r e)
      = V c main_arg2 (ix3 (((cfg0.win 11).blk t).view.emb (ix3 u r j) 0) (((cfg0.win 11).blk t).view.emb (ix3 u r j) 1) e) := by
  obtain ⟨e0, e1, e2, e3, e4, e5, e6, e7, e8, e9⟩ := idx_facts11 t
  show V c main_arg2 (((cfg0.win 2).blk t).view.emb (ix3 (0 : Fin 1) r e)) = _
  refine congrArg (V c main_arg2) (funext fun a => Fin.ext ?_)
  match a with
  | ⟨0, _⟩ => show win0_2.index t (0 : Fin 3) * 1 + 1 * 0 = win0_11.index t (0 : Fin 3) * 1 + 1 * u.val; have := u.isLt; omega
  | ⟨1, _⟩ => show win0_2.index t (1 : Fin 3) * 128 + 1 * r.val = win0_11.index t (1 : Fin 3) * 128 + 1 * r.val; omega
  | ⟨2, _⟩ => show win0_2.index t (2 : Fin 3) * 512 + 1 * e.val = e.val; omega

/-- The weights' block is the whole matrix. -/
theorem w11_read (V : (c : Dev nD) → (b : Ref sig .tc) → Buf (Elt Ideal) ((c : Thread nD τ).loc b)) (c : Dev nD) (t : Fin cfg0.N)
    (u : Fin 1) (r : Fin 128) (j : Fin 4096) (e : Fin 512) :
    iblk0 V c 7 t (ix2 e j) = V c main_v8 (ix2 e (((cfg0.win 11).blk t).view.emb (ix3 u r j) 2)) := by
  obtain ⟨e0, e1, e2, e3, e4, e5, e6, e7, e8, e9⟩ := idx_facts11 t
  show V c main_v8 (((cfg0.win 7).blk t).view.emb (ix2 e j)) = _
  refine congrArg (V c main_v8) (funext fun a => Fin.ext ?_)
  match a with
  | ⟨0, _⟩ => show win0_7.index t (0 : Fin 2) * 512 + 1 * e.val = e.val; omega
  | ⟨1, _⟩ => show win0_7.index t (1 : Fin 2) * 4096 + 1 * j.val = win0_11.index t (2 : Fin 3) * 4096 + 1 * j.val; omega

/-- The bias's block is the whole row. -/
theorem b11_read (V : (c : Dev nD) → (b : Ref sig .tc) → Buf (Elt Ideal) ((c : Thread nD τ).loc b)) (c : Dev nD) (t : Fin cfg0.N)
    (u : Fin 1) (r : Fin 128) (j : Fin 4096) :
    iblk0 V c 8 t (ix2 (0 : Fin 1) j) = V c main_v11 (ix2 (0 : Fin 1) (((cfg0.win 11).blk t).view.emb (ix3 u r j) 2)) := by
  obtain ⟨e0, e1, e2, e3, e4, e5, e6, e7, e8, e9⟩ := idx_facts11 t
  show V c main_v11 (((cfg0.win 8).blk t).view.emb (ix2 (0 : Fin 1) j)) = _
  refine congrArg (V c main_v11) (funext fun a => Fin.ext ?_)
  match a with
  | ⟨0, _⟩ => show win0_8.index t (0 : Fin 2) * 1 + 1 * 0 = 0; omega
  | ⟨1, _⟩ => show win0_8.index t (1 : Fin 2) * 4096 + 1 * j.val = win0_11.index t (2 : Fin 3) * 4096 + 1 * j.val; omega

/-- What a point writes back is its block of the whole-array projection. -/
theorem flushed11_eq (V : (c : Dev nD) → (b : Ref sig .tc) → Buf (Elt Ideal) ((c : Thread nD τ).loc b)) (c : Dev nD) (t : Fin cfg0.N) :
    (dat0 (F := Ideal) V c).flushed 11 t = ((cfg0.win 11).blk t).view.read (Elt Ideal) (projK (V c main_arg2) (V c main_v8) (V c main_v11)) := by
  show (cfg0.win 11).cut (grid0.coords t) ((dat0 (F := Ideal) V c).after 11 t) = _
  rw [after0_11]
  unfold out0_11
  rw [View.canon_unit_zero hz3]
  simp only [View.ld_unit_zero (S := S1x128x512) hz3, View.ld_unit_zero (S := S512x4096) hz2, View.ld_unit_zero (S := S1x4096) hz2]
  funext y
  show k0_pay3 (k0_pay5 (iblk0 V c 2 t) (iblk0 V c 7 t) (iblk0 V c 8 t)) y
      = projK (V c main_arg2) (V c main_v8) (V c main_v11) (((cfg0.win 11).blk t).view.emb y)
  obtain ⟨u, r, j, rfl⟩ : ∃ (u : Fin 1) (r : Fin 128) (j : Fin 4096), y = ix3 u r j := ⟨y 0, y 1, y 2, eq_ix3 y⟩
  refine (pay11_at _ _ _ u r j).trans ?_
  unfold projK
  exact congrArg₂ (· + ·) (Finset.sum_congr rfl fun e _ => congrArg₂ (· * ·) (x11_read V c t u r j e) (w11_read V c t u r j e)) (b11_read V c t u r j)

/-- An index of the output array is in a point's block iff each coordinate is in the block's range on its axis. -/
theorem mem_blk11 (t : Fin cfg0.N) (i : S4x2048x4096.Idx) :
    i ∈ ((cfg0.win 11).blk t).view.set ↔ ∀ a : Fin 3, win0_11.index t a * S1x128x4096.size a ≤ (i a).val ∧ (i a).val < win0_11.index t a * S1x128x4096.size a + S1x128x4096.size a := by
  show i ∈ ((View.whole main_v15_2).slice (win0_11.rect t)).set ↔ _
  rw [View.set_slice_whole, Rect.mem_set_unit]
  exact Iff.rfl

/-- Every (batch, row-block) pair is some point's block index. -/
theorem idx_onto11 : ∀ (q0 : Fin 4) (q1 : Fin 16), ∃ t : Fin cfg0.N, win0_11.index t = ![q0.val, q1.val, 0] :=
  (by decide +kernel : ∀ (q0 : Fin 4) (q1 : Fin 16), ∃ t : Fin grid0.N, win0_11.index t = ![q0.val, q1.val, 0])

/-- The blocks tile the output array: batch b, row s lies in the block of batch b and row-block s / 128. -/
theorem cover11 (i : S4x2048x4096.Idx) : ∃ t : Fin cfg0.N, (cfg0.win 11).flush t = true ∧ i ∈ ((cfg0.win 11).blk t).view.set := by
  have hi0 : (i 0).val < 4 := (i 0).isLt
  have hi1 : (i 1).val < 2048 := (i 1).isLt
  have hi2 : (i 2).val < 4096 := (i 2).isLt
  obtain ⟨t, ht⟩ := idx_onto11 ⟨(i 0).val, hi0⟩ ⟨(i 1).val / 128, by omega⟩
  have q0 : win0_11.index t (0 : Fin 3) = (i 0).val := congrFun ht 0
  have q1 : win0_11.index t (1 : Fin 3) = (i 1).val / 128 := congrFun ht 1
  have q2 : win0_11.index t (2 : Fin 3) = 0 := congrFun ht 2
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 128 ≤ (i 1).val ∧ (i 1).val < win0_11.index t (1 : Fin 3) * 128 + 128; omega
  | ⟨2, _⟩ => show win0_11.index t (2 : Fin 3) * 4096 ≤ (i 2).val ∧ (i 2).val < win0_11.index t (2 : Fin 3) * 4096 + 4096; omega

theorem final0_11 (V : (c : Dev nD) → (b : Ref sig .tc) → Buf (Elt Ideal) ((c : Thread nD τ).loc b)) (c : Dev nD) :
    (dat0 (F := Ideal) V c).arrAt 11 cfg0.N = projK (V c main_arg2) (V c main_v8) (V c main_v11) :=
  (dat0 (F := Ideal) V c).arrAt_eq_of_cover 11 (projK (V c main_arg2) (V c main_v8) (V c main_v11)) (fun t _ => flushed11_eq V c t) cover11

end Cert.KernelIdeal.Region0

end
-- ==== Proof.Region1.lean ====
import proofs.«142515_j15685220565779_1_alg».proof.Proof.Gen.KernelIdeal.Frame
import proofs.«142515_j15685220565779_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The two contractions, read through their dimension records

The first contraction sums over the row axis of both operands (the transpose of the left one times the right one);
the second is the plain rows-by-columns product. For each, the operand indices at an output index and a contraction
position are spelt out axis by axis. -/

theorem ktv_lhs_0 (i : S512x512.Idx) (q : dot_S2048x512_S2048x512_S512x512_0_0_1_1_n_n.contr.Idx) :
    (dot_S2048x512_S2048x512_S512x512_0_0_1_1_n_n.lhsIdx i q 0).val = (q ⟨0, by decide⟩).val :=
  dot_S2048x512_S2048x512_S512x512_0_0_1_1_n_n.lhsIdx_val_of_single rfl i q
theorem ktv_lhs_1 (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl
theorem ktv_rhs_0 (i : S512x512.Idx) (q : dot_S2048x512_S2048x512_S512x512_0_0_1_1_n_n.contr.Idx) :
    (dot_S2048x512_S2048x512_S512x512_0_0_1_1_n_n.rhsIdx i q 0).val = (q ⟨0, by decide⟩).val :=
  dot_S2048x512_S2048x512_S512x512_0_0_1_1_n_n.rhsIdx_val_of_single rfl i q
theorem ktv_rhs_1 (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl

/-- Entry (e, f) of the transposed-left product: the sum over the 2048 rows s of left (s, e) times right (s, f). -/
theorem ktv_apply (k v : FVec Ideal S2048x512 .bf16) (e f : Fin 512) :
    matmul dot_S2048x512_S2048x512_S512x512_0_0_1_1_n_n none k v (constant (F := Ideal) S512x512 .f32 0x00000000#32) (ix2 e f)
      = ∑ s : Fin 2048, k (ix2 s e) * v (ix2 s f) := by
  refine (Ideal.matmul_constant_zero_apply dot_S2048x512_S2048x512_S512x512_0_0_1_1_n_n none k v (ix2 e f)).trans ?_
  rw [← Equiv.sum_comp (contrEquiv1 dot_S2048x512_S2048x512_S512x512_0_0_1_1_n_n 2048 rfl rfl).symm]
  refine Finset.sum_congr rfl fun s _ => ?_
  have hk := contrEquiv1_symm_val dot_S2048x512_S2048x512_S512x512_0_0_1_1_n_n 2048 rfl rfl s
  have el : dot_S2048x512_S2048x512_S512x512_0_0_1_1_n_n.lhsIdx (ix2 e f) ((contrEquiv1 dot_S2048x512_S2048x512_S512x512_0_0_1_1_n_n 2048 rfl rfl).symm s) = ix2 s e := funext fun a => Fin.ext (by
    match a with
    | ⟨0, _⟩ => exact (ktv_lhs_0 _ _).trans hk
    | ⟨1, _⟩ => exact ktv_lhs_1 _ _)
  have er : dot_S2048x512_S2048x512_S512x512_0_0_1_1_n_n.rhsIdx (ix2 e f) ((contrEquiv1 dot_S2048x512_S2048x512_S512x512_0_0_1_1_n_n 2048 rfl rfl).symm s) = ix2 s f := funext fun a => Fin.ext (by
    match a with
    | ⟨0, _⟩ => exact (ktv_rhs_0 _ _).trans hk
    | ⟨1, _⟩ => exact ktv_rhs_1 _ _)
  rw [el, er]

theorem qm_lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem qm_lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem qm_rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem qm_rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (r, f) of the plain product: the sum over e of left (r, e) times right (e, f). -/
theorem qm_apply (x : FVec Ideal S2048x512 .bf16) (y : FVec Ideal S512x512 .bf16) (r : Fin 2048) (f : Fin 512) :
    matmul dot_S2048x512_S512x512_S2048x512_1_0_0_1_n_n none x y (constant (F := Ideal) S2048x512 .f32 0x00000000#32) (ix2 r f)
      = ∑ e : Fin 512, x (ix2 r e) * y (ix2 e f) := by
  refine (Ideal.matmul_constant_zero_apply dot_S2048x512_S512x512_S2048x512_1_0_0_1_n_n none x y (ix2 r f)).trans ?_
  rw [← Equiv.sum_comp (contrEquiv1 dot_S2048x512_S512x512_S2048x512_1_0_0_1_n_n 512 rfl rfl).symm]
  refine Finset.sum_congr rfl fun e _ => ?_
  have hk := contrEquiv1_symm_val dot_S2048x512_S512x512_S2048x512_1_0_0_1_n_n 512 rfl rfl e
  have el : dot_S2048x512_S512x512_S2048x512_1_0_0_1_n_n.lhsIdx (ix2 r f) ((contrEquiv1 dot_S2048x512_S512x512_S2048x512_1_0_0_1_n_n 512 rfl rfl).symm e) = ix2 r e := funext fun a => Fin.ext (by
    match a with
    | ⟨0, _⟩ => exact qm_lhs_0 _ _
    | ⟨1, _⟩ => exact (qm_lhs_1 _ _).trans hk)
  have er : dot_S2048x512_S512x512_S2048x512_1_0_0_1_n_n.rhsIdx (ix2 r f) ((contrEquiv1 dot_S2048x512_S512x512_S2048x512_1_0_0_1_n_n 512 rfl rfl).symm e) = ix2 e f := funext fun a => Fin.ext (by
    match a with
    | ⟨0, _⟩ => exact (qm_rhs_0 _ _).trans hk
    | ⟨1, _⟩ => exact qm_rhs_1 _ _)
  rw [el, er]

/-! ## The body's stored value at an index -/

/-- Entry (u, r, f) of what the body stores: row r of the first block times the scaled transposed product of the
    other two blocks, that is the sum over e of first (r, e) times ((the sum over s of second (s, e) times
    third (s, f)) times the scalar). -/
theorem pay_apply (q k v : FVec Ideal S1x2048x512 .bf16) (u : Fin 1) (r : Fin 2048) (f : Fin 512) :
    k1_pay1 (F := Ideal) q k v (ix3 u r f)
      = ∑ e : Fin 512, q (ix3 (0 : Fin 1) r e)
          * ((∑ s : Fin 2048, k (ix3 (0 : Fin 1) s e) * v (ix3 (0 : Fin 1) s f)) * Ideal.ofBits .f32 0x3B000000#32) := by
  unfold k1_pay1
  refine (shapeCast_ab_1ab_apply _ shapeCasts_S2048x512_S1x2048x512 u r f).trans ?_
  refine (qm_apply _ _ r f).trans ?_
  refine Finset.sum_congr rfl fun e _ => ?_
  refine congrArg₂ (· * ·) (shapeCast_1ab_ab_apply q shapeCasts_S1x2048x512_S2048x512 r e) ?_
  refine congrArg (· * Ideal.ofBits .f32 0x3B000000#32) ?_
  refine (ktv_apply _ _ e f).trans ?_
  exact Finset.sum_congr rfl fun s _ => congrArg₂ (· * ·) (shapeCast_1ab_ab_apply k shapeCasts_S1x2048x512_S2048x512 s e) (shapeCast_1ab_ab_apply v shapeCasts_S1x2048x512_S2048x512 s f)

/-! ## From the blocks to the array

At grid point (b, h) every window sits on block (b, 0, h) of its array: batch b, all 2048 rows, the 512 columns of
head h. So entry (u, r, e) of a block is entry (b, r, 512 h + e) of the array. -/

theorem zero_offsets : (![0, 0, 0] : Fin 3 → Nat) = fun _ => 0 := funext fun a => by fin_cases a <;> rfl

/-- The four index maps agree at every grid point, and name a batch and a head. -/
theorem same_block : ∀ t : Fin cfg1.N, ∃ (b : Fin 4) (h : Fin 8),
    win1_0.index t = ![b.val, 0, h.val] ∧ win1_1.index t = ![b.val, 0, h.val]
    ∧ win1_2.index t = ![b.val, 0, h.val] ∧ win1_3.index t = ![b.val, 0, h.val] :=
  (by decide +kernel : ∀ t : Fin grid1.N, _)

/-- Every (batch, head) pair is some grid point's. -/
theorem every_block : ∀ (b : Fin 4) (h : Fin 8), ∃ t : Fin cfg1.N, win1_3.index t = ![b.val, 0, h.val] :=
  (by decide +kernel : ∀ (b : Fin 4) (h : Fin 8), ∃ t : Fin grid1.N, win1_3.index t = ![b.val, 0, h.val])

/-- Where entry (u, r, e) of window 0's block lies in its array. -/
theorem emb0 (t : Fin cfg1.N) (b : Fin 4) (h : Fin 8) (hw : win1_0.index t = ![b.val, 0, h.val]) (u : Fin 1) (r : Fin 2048) (e : Fin 512) :
    ((cfg1.win 0).blk t).view.emb (ix3 u r e) = (ix3 b r (col h e) : S4x2048x4096.Idx) := by
  have q0 : win1_0.index t (0 : Fin 3) = b.val := congrFun hw 0
  have q1 : win1_0.index t (1 : Fin 3) = 0 := congrFun hw 1
  have q2 : win1_0.index t (2 : Fin 3) = h.val := congrFun hw 2
  funext a; apply Fin.ext
  match a with
  | ⟨0, _⟩ => show win1_0.index t (0 : Fin 3) * 1 + 1 * u.val = b.val; omega
  | ⟨1, _⟩ => show win1_0.index t (1 : Fin 3) * 2048 + 1 * r.val = r.val; omega
  | ⟨2, _⟩ => show win1_0.index t (2 : Fin 3) * 512 + 1 * e.val = 512 * h.val + e.val; omega

/-- Where entry (u, r, e) of window 1's block lies in its array. -/
theorem emb1 (t : Fin cfg1.N) (b : Fin 4) (h : Fin 8) (hw : win1_1.index t = ![b.val, 0, h.val]) (u : Fin 1) (r : Fin 2048) (e : Fin 512) :
    ((cfg1.win 1).blk t).view.emb (ix3 u r e) = (ix3 b r (col h e) : S4x2048x4096.Idx) := by
  have q0 : win1_1.index t (0 : Fin 3) = b.val := congrFun hw 0
  have q1 : win1_1.index t (1 : Fin 3) = 0 := congrFun hw 1
  have q2 : win1_1.index t (2 : Fin 3) = h.val := congrFun hw 2
  funext a; apply Fin.ext
  match a with
  | ⟨0, _⟩ => show win1_1.index t (0 : Fin 3) * 1 + 1 * u.val = b.val; omega
  | ⟨1, _⟩ => show win1_1.index t (1 : Fin 3) * 2048 + 1 * r.val = r.val; omega
  | ⟨2, _⟩ => show win1_1.index t (2 : Fin 3) * 512 + 1 * e.val = 512 * h.val + e.val; omega

/-- Where entry (u, r, e) of window 2's block lies in its array. -/
theorem emb2 (t : Fin cfg1.N) (b : Fin 4) (h : Fin 8) (hw : win1_2.index t = ![b.val, 0, h.val]) (u : Fin 1) (r : Fin 2048) (e : Fin 512) :
    ((cfg1.win 2).blk t).view.emb (ix3 u r e) = (ix3 b r (col h e) : S4x2048x4096.Idx) := by
  have q0 : win1_2.index t (0 : Fin 3) = b.val := congrFun hw 0
  have q1 : win1_2.index t (1 : Fin 3) = 0 := congrFun hw 1
  have q2 : win1_2.index t (2 : Fin 3) = h.val := congrFun hw 2
  funext a; apply Fin.ext
  match a with
  | ⟨0, _⟩ => show win1_2.index t (0 : Fin 3) * 1 + 1 * u.val = b.val; omega
  | ⟨1, _⟩ => show win1_2.index t (1 : Fin 3) * 2048 + 1 * r.val = r.val; omega
  | ⟨2, _⟩ => show win1_2.index t (2 : Fin 3) * 512 + 1 * e.val = 512 * h.val + e.val; omega

/-- Where entry (u, r, e) of the output window's block lies in its array. -/
theorem emb3 (t : Fin cfg1.N) (b : Fin 4) (h : Fin 8) (hw : win1_3.index t = ![b.val, 0, h.val]) (u : Fin 1) (r : Fin 2048) (e : Fin 512) :
    ((cfg1.win 3).blk t).view.emb (ix3 u r e) = (ix3 b r (col h e) : S4x2048x4096.Idx) := by
  have q0 : win1_3.index t (0 : Fin 3) = b.val := congrFun hw 0
  have q1 : win1_3.index t (1 : Fin 3) = 0 := congrFun hw 1
  have q2 : win1_3.index t (2 : Fin 3) = h.val := congrFun hw 2
  funext a; apply Fin.ext
  match a with
  | ⟨0, _⟩ => show win1_3.index t (0 : Fin 3) * 1 + 1 * u.val = b.val; omega
  | ⟨1, _⟩ => show win1_3.index t (1 : Fin 3) * 2048 + 1 * r.val = r.val; omega
  | ⟨2, _⟩ => show win1_3.index t (2 : Fin 3) * 512 + 1 * e.val = 512 * h.val + e.val; omega

section Blocks
variable (V : (c : Dev nD) → (b : Ref sig .tc) → Buf (Elt Ideal) ((c : Thread nD τ).loc b)) (c : Dev nD)

/-- An input window's block is its array read through the block's rectangle. -/
theorem iblk_0 (t : Fin cfg1.N) (y : S1x2048x512.Idx) :
    iblk1 (F := Ideal) V c 0 t y = V c main_v15_0 (((cfg1.win 0).blk t).view.emb y) := by
  unfold iblk1; rfl
theorem iblk_1 (t : Fin cfg1.N) (y : S1x2048x512.Idx) :
    iblk1 (F := Ideal) V c 1 t y = V c main_v15_1 (((cfg1.win 1).blk t).view.emb y) := by
  unfold iblk1; rfl
theorem iblk_2 (t : Fin cfg1.N) (y : S1x2048x512.Idx) :
    iblk1 (F := Ideal) V c 2 t y = V c main_v15_2 (((cfg1.win 2).blk t).view.emb y) := by
  unfold iblk1; rfl

end Blocks

/-! ## The whole-array function on a block -/

/-- The whole-array function at entry (b, r, 512 h + f): the head of that column is h. -/
theorem attnK_block (cst : EReal) (Q K W : P3.Idx → EReal) (b : Fin 4) (h : Fin 8) (r : Fin 2048) (f : Fin 512) :
    attnK cst Q K W (ix3 b r (col h f))
      = ∑ e : Fin 512, Q (ix3 b r (col h e)) * ((∑ s : Fin 2048, K (ix3 b s (col h e)) * W (ix3 b s (col h f))) * cst) := by
  show (∑ e : Fin 512, Q (ix3 b r (col (hd (col h f)) e))
    * ((∑ s : Fin 2048, K (ix3 b s (col (hd (col h f)) e)) * W (ix3 b s (col h f))) * cst)) = _
  rw [hd_col]

/-- Three blocks that are batch b, head h of three arrays give, by the body's sum, the whole-array function of the
    arrays at (b, r, 512 h + f). -/
theorem block_sum_eq (cst : EReal) (Q K W : P3.Idx → EReal) (q k w : FVec Ideal S1x2048x512 .bf16)
    (b : Fin 4) (h : Fin 8) (r : Fin 2048) (f : Fin 512)
    (hq : ∀ (r : Fin 2048) (e : Fin 512), q (ix3 (0 : Fin 1) r e) = Q (ix3 b r (col h e)))
    (hk : ∀ (s : Fin 2048) (e : Fin 512), k (ix3 (0 : Fin 1) s e) = K (ix3 b s (col h e)))
    (hw : ∀ (s : Fin 2048) (e : Fin 512), w (ix3 (0 : Fin 1) s e) = W (ix3 b s (col h e))) :
    (∑ e : Fin 512, q (ix3 (0 : Fin 1) r e) * ((∑ s : Fin 2048, k (ix3 (0 : Fin 1) s e) * w (ix3 (0 : Fin 1) s f)) * cst))
      = attnK cst Q K W (ix3 b r (col h f)) := by
  rw [attnK_block]
  refine Finset.sum_congr rfl fun e _ => ?_
  rw [hq r e]
  refine congrArg (fun x : EReal => Q (ix3 b r (col h e)) * (x * cst)) ?_
  exact Finset.sum_congr rfl fun s _ => by rw [hk s e, hw s f]

section Array
variable (V : (c : Dev nD) → (b : Ref sig .tc) → Buf (Elt Ideal) ((c : Thread nD τ).loc b)) (c : Dev nD)

/-- What grid point t writes back is block t of the whole-array function: at point (b, h) the three input blocks
    are batch b, head h of their arrays, the stored entry (u, r, f) is the head-h sum for row r and column f, and the
    array entry under it is (b, r, 512 h + f), whose head is h. -/
theorem flushed_eq (t : Fin cfg1.N) :
    (dat1 (F := Ideal) V c).flushed 3 t = ((cfg1.win 3).blk t).view.read (Elt Ideal)
      (attnK (Ideal.ofBits .f32 0x3B000000#32) (V c main_v15_0) (V c main_v15_1) (V c main_v15_2)) := by
  show (cfg1.win 3).cut (grid1.coords t) ((dat1 V c).after 3 t) = _
  rw [after1_3]
  unfold out1_3
  rw [View.canon_unit_zero zero_offsets]
  simp only [View.ld_unit_zero (S := S1x2048x512) zero_offsets]
  obtain ⟨b, h, e0, e1, e2, e3⟩ := same_block t
  refine funext fun (j : S1x2048x512.Idx) => ?_
  obtain ⟨u, r, f, rfl⟩ : ∃ (u : Fin 1) (r : Fin 2048) (f : Fin 512), j = ix3 u r f := ⟨j 0, j 1, j 2, eq_ix3 j⟩
  show k1_pay1 (F := Ideal) (iblk1 V c 0 t) (iblk1 V c 1 t) (iblk1 V c 2 t) (ix3 u r f)
    = attnK (Ideal.ofBits .f32 0x3B000000#32) (V c main_v15_0) (V c main_v15_1) (V c main_v15_2) (((cfg1.win 3).blk t).view.emb (ix3 u r f))
  rw [emb3 t b h e3 u r f]
  refine (pay_apply _ _ _ u r f).trans ?_
  exact block_sum_eq _ (V c main_v15_0) (V c main_v15_1) (V c main_v15_2) _ _ _ b h r f
    (fun r e => (iblk_0 V c t _).trans (congrArg (V c main_v15_0) (emb0 t b h e0 0 r e)))
    (fun s e => (iblk_1 V c t _).trans (congrArg (V c main_v15_1) (emb1 t b h e1 0 s e)))
    (fun s e => (iblk_2 V c t _).trans (congrArg (V c main_v15_2) (emb2 t b h e2 0 s e)))

/-- An index of the output array is in point t's block iff each coordinate is in the block's range on its axis. -/
theorem mem_blk (t : Fin cfg1.N) (i : S4x2048x4096.Idx) :
    i ∈ ((cfg1.win 3).blk t).view.set ↔ ∀ a : Fin 3, win1_3.index t a * S1x2048x512.size a ≤ (i a).val ∧ (i a).val < win1_3.index t a * S1x2048x512.size a + S1x2048x512.size a := by
  show i ∈ ((View.whole main_v16).slice (win1_3.rect t)).set ↔ _
  rw [View.set_slice_whole, Rect.mem_set_unit]
  exact Iff.rfl

/-- The blocks tile the array: entry (b, r, j) lies in the block of the point whose batch is b and whose head is j / 512. -/
theorem cover (i : S4x2048x4096.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 4096 := (i 2).isLt
  obtain ⟨t, ht⟩ := every_block ⟨(i 0).val, hi0⟩ ⟨(i 2).val / 512, by omega⟩
  have q0 : win1_3.index t (0 : Fin 3) = (i 0).val := congrFun ht 0
  have q1 : win1_3.index t (1 : Fin 3) = 0 := congrFun ht 1
  have q2 : win1_3.index t (2 : Fin 3) = (i 2).val / 512 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 512 ≤ (i 2).val ∧ (i 2).val < win1_3.index t (2 : Fin 3) * 512 + 512; omega

end Array

/-- The second region's output array, whatever the buffers hold when it is entered. -/
theorem final1_3 (V : (c : Dev nD) → (b : Ref sig .tc) → Buf (Elt Ideal) ((c : Thread nD τ).loc b)) (c : Dev nD) :
    (dat1 (F := Ideal) V c).arrAt 3 cfg1.N = attnK (Ideal.ofBits .f32 0x3B000000#32) (V c main_v15_0) (V c main_v15_1) (V c main_v15_2) :=
  (dat1 (F := Ideal) V c).arrAt_eq_of_cover 3 _ (fun t _ => flushed_eq V c t) cover

end Cert.KernelIdeal.Region1

end
-- ==== Proof.Region2.lean ====
import proofs.«142515_j15685220565779_1_alg».proof.Proof.Gen.KernelIdeal.Frame
import proofs.«142515_j15685220565779_1_alg».proof.Proof.Spec
import Idealize.ShloMosaic.Lib.Pipeline.Value
import Idealize.ShloMosaic.PureOps.Ideal.Laws
import Idealize.ShloMosaic.Lib.ValueLayout
import Idealize.ShloMosaic.Lib.ValueIdx

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The body's payload at an index -/

/-- The left operand's row is the result's row. -/
theorem lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
/-- The left operand's column is the summation index. -/
theorem lhs_col (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- The right operand's row is the summation index. -/
theorem rhs_row (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- The right operand's column is the result's column. -/
theorem rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- A 512 × 4096 matrix times a 4096 × 512 matrix into a zero accumulator: entry (r, o) is the sum over k of
    a(r, k) · b(k, o). -/
theorem matmul_at (a : FVec Ideal S512x4096 .bf16) (b : FVec Ideal S4096x512 .bf16) (r o : Fin 512) :
    matmul dot_S512x4096_S4096x512_S512x512_1_0_0_1_n_n none a b (constant (F := Ideal) S512x512 .f32 0x00000000#32) (ix2 r o)
      = ∑ k : Fin 4096, a (ix2 r k) * b (ix2 k o) := by
  refine (Ideal.matmul_constant_zero_apply dot_S512x4096_S4096x512_S512x512_1_0_0_1_n_n none a b (ix2 r o)).trans ?_
  rw [← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 r o) ((contrEquiv1 dot_S512x4096_S4096x512_S512x512_1_0_0_1_n_n 4096 rfl rfl).symm k) = ix2 r k := funext fun ax => Fin.ext (by
    match ax with
    | ⟨0, _⟩ => exact lhs_row _ _
    | ⟨1, _⟩ => exact (lhs_col _ _).trans hk)
  have er : dot_S512x4096_S4096x512_S512x512_1_0_0_1_n_n.rhsIdx (ix2 r o) ((contrEquiv1 dot_S512x4096_S4096x512_S512x512_1_0_0_1_n_n 4096 rfl rfl).symm k) = ix2 k o := funext fun ax => Fin.ext (by
    match ax with
    | ⟨0, _⟩ => exact (rhs_row _ _).trans hk
    | ⟨1, _⟩ => exact rhs_col _ _)
  rw [el, er]

/-- What the body stores, entry by entry: row r of the block of heads times column o of the weight, plus the bias at o. -/
theorem pay_at (x0 : Vec Ideal S1x512x4096 .bf16) (x1 : Vec Ideal S4096x512 .bf16) (x2 : Vec Ideal S1x512 .f32)
    (u : Fin 1) (r o : Fin 512) :
    k2_pay1 (F := Ideal) x0 x1 x2 (ix3 u r o)
      = (∑ k : Fin 4096, x0 (ix3 (0 : Fin 1) r k) * x1 (ix2 k o)) + x2 (ix2 (0 : Fin 1) o) := by
  unfold k2_pay1
  refine (shapeCast_ab_1ab_apply _ _ u r o).trans ?_
  refine (addf_apply _ _ _).trans ?_
  refine congrArg₂ (· + ·) ?_ ?_
  · refine (matmul_at _ _ r o).trans ?_
    refine Finset.sum_congr rfl fun k _ => ?_
    refine congrArg₂ (· * ·) ?_ ?_
    · exact shapeCast_1ab_ab_apply x0 _ r k
    · exact congrFun (shapeCast_self x1 _) _
  · refine (broadcastTo_1b_ab_apply _ _ r o).trans ?_
    exact congrFun (shapeCast_self x2 _) _

/-! ## From the blocks to the array -/

theorem off3 : (![0, 0, 0] : Fin 3 → Nat) = fun _ => 0 := funext fun a => by fin_cases a <;> rfl
theorem off2 : (![0, 0] : Fin 2 → Nat) = fun _ => 0 := funext fun a => by fin_cases a <;> rfl

/-- The index maps over the sixteen grid points: the heads' block moves with the result's block along the batch and
    row axes and spans all columns; the weight and the bias are one block each; the result's block spans all features. -/
theorem idx_facts : ∀ t : Fin cfg2.N,
    win2_0.index t (0 : Fin 3) = win2_3.index t (0 : Fin 3) ∧ win2_0.index t (1 : Fin 3) = win2_3.index t (1 : Fin 3)
    ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (2 : Fin 3) = 0 :=
  (by decide +kernel : ∀ t : Fin grid2.N, _)

/-- Every (batch, row-block) pair is some grid point's. -/
theorem idx_onto : ∀ (q0 : Fin 4) (q1 : Fin 4), ∃ t : Fin cfg2.N, win2_3.index t = ![q0.val, q1.val, 0] :=
  (by decide +kernel : ∀ (q0 : Fin 4) (q1 : Fin 4), ∃ t : Fin grid2.N, win2_3.index t = ![q0.val, q1.val, 0])

section Blocks
variable (V : (c : Dev nD) → (b : Ref sig .tc) → Buf (Elt Ideal) ((c : Thread nD τ).loc b)) (c : Dev nD) (t : Fin cfg2.N)

/-- The heads' block at a point, entry by entry: the array at block index × block size + the entry's coordinate. -/
theorem heads_blk (u : Fin 1) (r : Fin 512) (k : Fin 4096) (i : P3.Idx)
    (h0 : (i 0).val = win2_0.index t (0 : Fin 3) * 1 + 1 * u.val)
    (h1 : (i 1).val = win2_0.index t (1 : Fin 3) * 512 + 1 * r.val)
    (h2 : (i 2).val = win2_0.index t (2 : Fin 3) * 4096 + 1 * k.val) :
    iblk2 (F := Ideal) V c 0 t (ix3 u r k) = V c main_v16 i := by
  unfold iblk2
  show V c main_v16 (((cfg2.win 0).blk t).view.emb (ix3 u r k)) = V c main_v16 i
  refine congrArg (V c main_v16) (funext fun a => Fin.ext ?_)
  match a with
  | ⟨0, _⟩ => exact h0.symm
  | ⟨1, _⟩ => exact h1.symm
  | ⟨2, _⟩ => exact h2.symm

/-- The weight's block at a point, entry by entry. -/
theorem weight_blk (k : Fin 4096) (o : Fin 512) (i : T2.Idx)
    (h0 : (i 0).val = win2_1.index t (0 : Fin 2) * 4096 + 1 * k.val)
    (h1 : (i 1).val = win2_1.index t (1 : Fin 2) * 512 + 1 * o.val) :
    iblk2 (F := Ideal) V c 1 t (ix2 k o) = V c main_v13 i := by
  unfold iblk2
  show V c main_v13 (((cfg2.win 1).blk t).view.emb (ix2 k o)) = V c main_v13 i
  refine congrArg (V c main_v13) (funext fun a => Fin.ext ?_)
  match a with
  | ⟨0, _⟩ => exact h0.symm
  | ⟨1, _⟩ => exact h1.symm

/-- The bias row's block at a point, entry by entry. -/
theorem bias_blk (u : Fin 1) (o : Fin 512) (i : R1.Idx)
    (h0 : (i 0).val = win2_2.index t (0 : Fin 2) * 1 + 1 * u.val)
    (h1 : (i 1).val = win2_2.index t (1 : Fin 2) * 512 + 1 * o.val) :
    iblk2 (F := Ideal) V c 2 t (ix2 u o) = V c main_v14 i := by
  unfold iblk2
  show V c main_v14 (((cfg2.win 2).blk t).view.emb (ix2 u o)) = V c main_v14 i
  refine congrArg (V c main_v14) (funext fun a => Fin.ext ?_)
  match a with
  | ⟨0, _⟩ => exact h0.symm
  | ⟨1, _⟩ => exact h1.symm

/-- What a point writes back is its block of the whole-array function. -/
theorem flushed_eq :
    (dat2 (F := Ideal) V c).flushed 3 t
      = ((cfg2.win 3).blk t).view.read (Elt Ideal) (outK (V c main_v16) (V c main_v13) (V c main_v14)) := by
  show (cfg2.win 3).cut (grid2.coords t) ((dat2 V c).after 3 t) = _
  rw [after2_3]
  unfold out2_3
  rw [View.canon_unit_zero off3]
  simp only [View.ld_unit_zero (S := S1x512x4096) off3, View.ld_unit_zero (S := S4096x512) off2, View.ld_unit_zero (S := S1x512) off2]
  obtain ⟨e00, e01, e02, e10, e11, e20, e21, e32⟩ := idx_facts t
  funext y
  obtain ⟨u, r, o, rfl⟩ : ∃ (u : Fin 1) (r : Fin 512) (o : Fin 512), y = ix3 u r o := ⟨y 0, y 1, y 2, eq_ix3 y⟩
  show k2_pay1 (F := Ideal) (iblk2 V c 0 t) (iblk2 V c 1 t) (iblk2 V c 2 t) (ix3 u r o)
    = outK (V c main_v16) (V c main_v13) (V c main_v14) (((cfg2.win 3).blk t).view.emb (ix3 u r o))
  rw [pay_at]
  unfold outK
  have hu : u.val = 0 := by omega
  refine congrArg₂ (· + ·) (Finset.sum_congr rfl fun k _ => congrArg₂ (· * ·) ?_ ?_) ?_
  · refine heads_blk V c t 0 r k _ ?_ ?_ ?_
    · show win2_3.index t (0 : Fin 3) * 1 + 1 * u.val = win2_0.index t (0 : Fin 3) * 1 + 1 * 0
      omega
    · show win2_3.index t (1 : Fin 3) * 512 + 1 * r.val = win2_0.index t (1 : Fin 3) * 512 + 1 * r.val
      omega
    · show k.val = win2_0.index t (2 : Fin 3) * 4096 + 1 * k.val
      omega
  · refine weight_blk V c t k o _ ?_ ?_
    · show k.val = win2_1.index t (0 : Fin 2) * 4096 + 1 * k.val
      omega
    · show win2_3.index t (2 : Fin 3) * 512 + 1 * o.val = win2_1.index t (1 : Fin 2) * 512 + 1 * o.val
      omega
  · refine bias_blk V c t 0 o _ ?_ ?_
    · show 0 = win2_2.index t (0 : Fin 2) * 1 + 1 * 0
      omega
    · show win2_3.index t (2 : Fin 3) * 512 + 1 * o.val = win2_2.index t (1 : Fin 2) * 512 + 1 * o.val
      omega

end Blocks

/-! ## The blocks tile the array -/

/-- An index lies in a point's block exactly when each coordinate lies in the block's range on its axis. -/
theorem mem_blk (t : Fin cfg2.N) (i : A3.Idx) :
    i ∈ ((cfg2.win 3).blk t).view.set ↔ ∀ a : Fin 3, win2_3.index t a * S1x512x512.size a ≤ (i a).val ∧ (i a).val < win2_3.index t a * S1x512x512.size a + S1x512x512.size a := by
  show i ∈ ((View.whole main_v17).slice (win2_3.rect t)).set ↔ _
  rw [View.set_slice_whole, Rect.mem_set_unit]
  exact Iff.rfl

/-- Every index of the result lies in the block of the point (batch, row / 512). -/
theorem cover (i : A3.Idx) : ∃ t : Fin cfg2.N, (cfg2.win 3).flush t = true ∧ i ∈ ((cfg2.win 3).blk t).view.set := by
  have hi0 : (i 0).val < 4 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 512 ≤ (i 2).val ∧ (i 2).val < win2_3.index t (2 : Fin 3) * 512 + 512; omega

/-- The third region's output array, whatever the buffers hold when it is entered. -/
theorem final2_3 (V : (c : Dev nD) → (b : Ref sig .tc) → Buf (Elt Ideal) ((c : Thread nD τ).loc b)) (c : Dev nD) :
    (dat2 (F := Ideal) V c).arrAt 3 cfg2.N = outK (V c main_v16) (V c main_v13) (V c main_v14) := by
  exact (dat2 (F := Ideal) V c).arrAt_eq_of_cover 3 (outK (V c main_v16) (V c main_v13) (V c main_v14))
    (fun t _ => flushed_eq V c t) cover

end Cert.KernelIdeal.Region2

end
-- ==== Proof.HostSide.lean ====
import proofs.«142515_j15685220565779_1_alg».proof.Proof.Gen.KernelIdeal.Frame
import proofs.«142515_j15685220565779_1_alg».proof.Proof.Spec
import Idealize.ShloMosaic.Lib.StableHlo.Run
import Idealize.ShloMosaic.Lib.Pipeline.Value
import Idealize.ShloMosaic.Lib.ValueLayout
set_option maxRecDepth 16384

noncomputable section

namespace Cert.KernelIdeal.HostSide

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The four re-layouts, index by index

Each host operation before the first region only moves entries: a transpose permutes the coordinates, a reshape keeps
the row-major position, and the narrowing to the 16-bit format is the identity on extended reals. So each computed
buffer reads, at every index, ONE entry of an argument, and that entry is the one the specification names. -/

/-- The per-head matrices W[h,o,e], transposed to [e,h,o] and flattened over (h,o): the entry at (e, j) has row-major
    position e·4096 + j = (e·8 + j/512)·512 + j%512, so it is the transpose's entry (e, j/512, j%512), which is
    W (j/512, j%512, e). -/
theorem sideBySide_weights (x : FVec Ideal S8x512x512 .f32) :
    (truncf .bf16 (shapeCast S512x4096 (transpose S512x8x512 [2, 0, 1] x transposes_S8x512x512_S512x8x512_2_0_1)
      shapeCasts_S512x8x512_S512x4096) bitsLt_bf16_f32 : FVec Ideal S512x4096 .bf16) = catW x := by
  funext i
  rw [truncf_apply]
  refine (shapeCast_apply _ shapeCasts_S512x8x512_S512x4096 i (ix3 (i 0) (hd (i 1)) (wi (i 1))) ?_).trans ?_
  · rw [Shape.rowMajor_val_three, Shape.rowMajor_val_two]
    have h1 : (i 1).val < 4096 := (i 1).isLt
    show ((i 0).val * 8 + (i 1).val / 512) * 512 + (i 1).val % 512 = (i 0).val * 4096 + (i 1).val
    omega
  · exact transpose_apply [2, 0, 1] x transposes_S8x512x512_S512x8x512_2_0_1 (ix3 (i 0) (hd (i 1)) (wi (i 1)))
      (ix3 (hd (i 1)) (wi (i 1)) (i 0)) (fun b => match b with
        | ⟨0, _⟩ => rfl
        | ⟨1, _⟩ => rfl
        | ⟨2, _⟩ => rfl)

/-- The per-head bias rows b[h,o] flattened to one row: the entry at (0, j) has row-major position j = (j/512)·512 + j%512,
    so it is b (j/512, j%512). -/
theorem sideBySide_biases (x : FVec Ideal S8x512 .f32) :
    (shapeCast S1x4096 x shapeCasts_S8x512_S1x4096 : FVec Ideal S1x4096 .f32) = catB x := by
  funext i
  refine (shapeCast_apply x shapeCasts_S8x512_S1x4096 i (ix2 (hd (i 1)) (wi (i 1))) ?_).trans rfl
  rw [Shape.rowMajor_val_two, Shape.rowMajor_val_two]
  have h0 : (i 0).val < 1 := (i 0).isLt
  have h1 : (i 1).val < 4096 := (i 1).isLt
  show (i 1).val / 512 * 512 + (i 1).val % 512 = (i 0).val * 4096 + (i 1).val
  omega

/-- The output weight W[o,j] transposed: the entry at (j, o) is W (o, j). -/
theorem transposed_weight (x : FVec Ideal S512x4096 .f32) :
    (truncf .bf16 (transpose S4096x512 [1, 0] x transposes_S512x4096_S4096x512_1_0) bitsLt_bf16_f32
      : FVec Ideal S4096x512 .bf16) = trW x := by
  funext i
  rw [truncf_apply]
  exact transpose_apply [1, 0] x transposes_S512x4096_S4096x512_1_0 i (ix2 (i 1) (i 0)) (fun b => match b with
    | ⟨0, _⟩ => rfl
    | ⟨1, _⟩ => rfl)

/-- The output bias b[o] as a one-row matrix: the entry at (0, o) has row-major position o, so it is b o. -/
theorem row_bias (x : FVec Ideal S512 .f32) :
    (shapeCast S1x512 x shapeCasts_S512_S1x512 : FVec Ideal S1x512 .f32) = rowB x := by
  funext i
  refine (shapeCast_apply x shapeCasts_S512_S1x512 i (ix1 (i 1)) ?_).trans rfl
  rw [Shape.rowMajor_val_one, Shape.rowMajor_val_two]
  have h0 : (i 0).val < 1 := (i 0).isLt
  show (i 1).val = (i 0).val * 512 + (i 1).val
  omega

/-! ## The buffers after the host operations

A computed buffer holds its own operation's value at what the earlier operations left in that operation's operand,
down to an argument at its launch contents; an argument no operation writes holds its launch contents still. -/

/-- What the host operations before the first region leave: the re-laid weights and biases, the inputs untouched. -/
theorem V1_v2 (m : (ℓ : Loc nD τ sig) → Buf (Elt Ideal) ℓ) (ρ : Dev nD → PrngReg) (c : Dev nD) : V1 m ρ c main_v2 = catW (m ((c : Thread nD τ).loc main_arg3)) := by
  have e : @Eq (FVec Ideal S512x4096 .bf16) (V1 m ρ c main_v2)
        (truncf .bf16 (shapeCast S512x4096 (transpose S512x8x512 [2, 0, 1] (m ((c : Thread nD τ).loc main_arg3))
          transposes_S8x512x512_S512x8x512_2_0_1) shapeCasts_S512x8x512_S512x4096) bitsLt_bf16_f32) := by
    show StableHlo.after hostOps0 (W0 m ρ c) (Proc.devRef .tc main_v2) = _
    after_results
    rfl
  exact e.trans (sideBySide_weights _)
theorem V1_v5 (m : (ℓ : Loc nD τ sig) → Buf (Elt Ideal) ℓ) (ρ : Dev nD → PrngReg) (c : Dev nD) : V1 m ρ c main_v5 = catW (m ((c : Thread nD τ).loc main_arg5)) := by
  have e : @Eq (FVec Ideal S512x4096 .bf16) (V1 m ρ c main_v5)
        (truncf .bf16 (shapeCast S512x4096 (transpose S512x8x512 [2, 0, 1] (m ((c : Thread nD τ).loc main_arg5))
          transposes_S8x512x512_S512x8x512_2_0_1) shapeCasts_S512x8x512_S512x4096) bitsLt_bf16_f32) := by
    show StableHlo.after hostOps0 (W0 m ρ c) (Proc.devRef .tc main_v5) = _
    after_results
    rfl
  exact e.trans (sideBySide_weights _)
theorem V1_v8 (m : (ℓ : Loc nD τ sig) → Buf (Elt Ideal) ℓ) (ρ : Dev nD → PrngReg) (c : Dev nD) : V1 m ρ c main_v8 = catW (m ((c : Thread nD τ).loc main_arg7)) := by
  have e : @Eq (FVec Ideal S512x4096 .bf16) (V1 m ρ c main_v8)
        (truncf .bf16 (shapeCast S512x4096 (transpose S512x8x512 [2, 0, 1] (m ((c : Thread nD τ).loc main_arg7))
          transposes_S8x512x512_S512x8x512_2_0_1) shapeCasts_S512x8x512_S512x4096) bitsLt_bf16_f32) := by
    show StableHlo.after hostOps0 (W0 m ρ c) (Proc.devRef .tc main_v8) = _
    after_results
    rfl
  exact e.trans (sideBySide_weights _)
theorem V1_v9 (m : (ℓ : Loc nD τ sig) → Buf (Elt Ideal) ℓ) (ρ : Dev nD → PrngReg) (c : Dev nD) : V1 m ρ c main_v9 = catB (m ((c : Thread nD τ).loc main_arg4)) := by
  have e : (V1 m ρ c main_v9 : S1x4096.Idx → EReal)
      = shapeCast S1x4096 (m ((c : Thread nD τ).loc main_arg4)) shapeCasts_S8x512_S1x4096 := by
    show StableHlo.after hostOps0 (W0 m ρ c) (Proc.devRef .tc main_v9) = _
    after_results
    rfl
  exact e.trans (sideBySide_biases _)
theorem V1_v10 (m : (ℓ : Loc nD τ sig) → Buf (Elt Ideal) ℓ) (ρ : Dev nD → PrngReg) (c : Dev nD) : V1 m ρ c main_v10 = catB (m ((c : Thread nD τ).loc main_arg6)) := by
  have e : (V1 m ρ c main_v10 : S1x4096.Idx → EReal)
      = shapeCast S1x4096 (m ((c : Thread nD τ).loc main_arg6)) shapeCasts_S8x512_S1x4096 := by
    show StableHlo.after hostOps0 (W0 m ρ c) (Proc.devRef .tc main_v10) = _
    after_results
    rfl
  exact e.trans (sideBySide_biases _)
theorem V1_v11 (m : (ℓ : Loc nD τ sig) → Buf (Elt Ideal) ℓ) (ρ : Dev nD → PrngReg) (c : Dev nD) : V1 m ρ c main_v11 = catB (m ((c : Thread nD τ).loc main_arg8)) := by
  have e : (V1 m ρ c main_v11 : S1x4096.Idx → EReal)
      = shapeCast S1x4096 (m ((c : Thread nD τ).loc main_arg8)) shapeCasts_S8x512_S1x4096 := by
    show StableHlo.after hostOps0 (W0 m ρ c) (Proc.devRef .tc main_v11) = _
    after_results
    rfl
  exact e.trans (sideBySide_biases _)
theorem V1_v13 (m : (ℓ : Loc nD τ sig) → Buf (Elt Ideal) ℓ) (ρ : Dev nD → PrngReg) (c : Dev nD) : V1 m ρ c main_v13 = trW (m ((c : Thread nD τ).loc main_arg9)) := by
  have e : @Eq (FVec Ideal S4096x512 .bf16) (V1 m ρ c main_v13)
        (truncf .bf16 (transpose S4096x512 [1, 0] (m ((c : Thread nD τ).loc main_arg9))
          transposes_S512x4096_S4096x512_1_0) bitsLt_bf16_f32) := by
    show StableHlo.after hostOps0 (W0 m ρ c) (Proc.devRef .tc main_v13) = _
    after_results
  exact e.trans (transposed_weight _)
theorem V1_v14 (m : (ℓ : Loc nD τ sig) → Buf (Elt Ideal) ℓ) (ρ : Dev nD → PrngReg) (c : Dev nD) : V1 m ρ c main_v14 = rowB (m ((c : Thread nD τ).loc main_arg10)) := by
  have e : (V1 m ρ c main_v14 : S1x512.Idx → EReal)
      = shapeCast S1x512 (m ((c : Thread nD τ).loc main_arg10)) shapeCasts_S512_S1x512 := by
    show StableHlo.after hostOps0 (W0 m ρ c) (Proc.devRef .tc main_v14) = _
    after_results
    rfl
  exact e.trans (row_bias _)
theorem V1_arg0 (m : (ℓ : Loc nD τ sig) → Buf (Elt Ideal) ℓ) (ρ : Dev nD → PrngReg) (c : Dev nD) : V1 m ρ c main_arg0 = m ((c : Thread nD τ).loc main_arg0) := by
  show W1 m ρ c (Proc.devRef .tc main_arg0) = _
  refine (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))).trans ?_
  rfl
theorem V1_arg1 (m : (ℓ : Loc nD τ sig) → Buf (Elt Ideal) ℓ) (ρ : Dev nD → PrngReg) (c : Dev nD) : V1 m ρ c main_arg1 = m ((c : Thread nD τ).loc main_arg1) := by
  show W1 m ρ c (Proc.devRef .tc main_arg1) = _
  refine (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))).trans ?_
  rfl
theorem V1_arg2 (m : (ℓ : Loc nD τ sig) → Buf (Elt Ideal) ℓ) (ρ : Dev nD → PrngReg) (c : Dev nD) : V1 m ρ c main_arg2 = m ((c : Thread nD τ).loc main_arg2) := by
  show W1 m ρ c (Proc.devRef .tc main_arg2) = _
  refine (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))).trans ?_
  rfl

end Cert.KernelIdeal.HostSide

end
-- ==== Proof.Chain.lean ====
import proofs.«142515_j15685220565779_1_alg».proof.Proof.Region0
import proofs.«142515_j15685220565779_1_alg».proof.Proof.Region1
import proofs.«142515_j15685220565779_1_alg».proof.Proof.Region2
import proofs.«142515_j15685220565779_1_alg».proof.Proof.HostSide

set_option maxRecDepth 16384

noncomputable section

namespace Cert.KernelIdeal.Chain

open Cert.KernelIdeal Cert.KernelIdeal.Gen Cert.Spec
open Cert.KernelIdeal.Region0 Cert.KernelIdeal.Region1 Cert.KernelIdeal.Region2 Cert.KernelIdeal.HostSide
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The three projected arrays, as the first region leaves them: its output arrays at the projections of the inputs
    by the re-laid weights, every buffer it does not write as the host operations left it. -/
theorem proj_q : V2 m ρ c main_v15_0 = projK (m ((c : Thread nD τ).loc main_arg0)) (catW (m ((c : Thread nD τ).loc main_arg3))) (catB (m ((c : Thread nD τ).loc main_arg4))) := by
  refine ((W2_arr m ρ c 9).trans (final0_9 (V1 m ρ) c)).trans ?_
  rw [V1_arg0, V1_v2, V1_v9]
theorem proj_k : V2 m ρ c main_v15_1 = projK (m ((c : Thread nD τ).loc main_arg1)) (catW (m ((c : Thread nD τ).loc main_arg5))) (catB (m ((c : Thread nD τ).loc main_arg6))) := by
  refine ((W2_arr m ρ c 10).trans (final0_10 (V1 m ρ) c)).trans ?_
  rw [V1_arg1, V1_v5, V1_v10]
theorem proj_v : V2 m ρ c main_v15_2 = projK (m ((c : Thread nD τ).loc main_arg2)) (catW (m ((c : Thread nD τ).loc main_arg7))) (catB (m ((c : Thread nD τ).loc main_arg8))) := by
  refine ((W2_arr m ρ c 11).trans (final0_11 (V1 m ρ) c)).trans ?_
  rw [V1_arg2, V1_v8, V1_v11]

/-- The heads' array, as the second region leaves it. -/
theorem heads : V3 m ρ c main_v16 = attnK (Ideal.ofBits .f32 0x3B000000#32) (V2 m ρ c main_v15_0) (V2 m ρ c main_v15_1) (V2 m ρ c main_v15_2) :=
  (W3_arr m ρ c 3).trans (final1_3 (V2 m ρ) c)

/-- The output weight and bias reach the third region as the host operations left them: neither of the first two
    regions writes them. -/
theorem out_w : V3 m ρ c main_v13 = trW (m ((c : Thread nD τ).loc main_arg9)) :=
  ((W3_of_ne m ρ c main_v13 (by decide)).trans (W2_of_ne m ρ c main_v13 (by decide))).trans (V1_v13 m ρ c)
theorem out_b : V3 m ρ c main_v14 = rowB (m ((c : Thread nD τ).loc main_arg10)) :=
  ((W3_of_ne m ρ c main_v14 (by decide)).trans (W2_of_ne m ρ c main_v14 (by decide))).trans (V1_v14 m ρ c)

/-- THE RESULT ARRAY after the run is the specification's function of the eleven arguments. -/
theorem result : W4 m ρ c (Proc.devRef .tc main_v17)
    = kernelResult (Ideal.ofBits .f32 0x3B000000#32) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 3).trans (final2_3 (V3 m ρ) c)).trans ?_
  rw [heads, out_w, out_b, proj_q, proj_k, proj_v]
  rfl

end Cert.KernelIdeal.Chain

end
-- ==== Proof.RefValue.lean ====
import proofs.«142515_j15685220565779_1_alg».proof.Proof.Gen.ReferenceIdeal.Read
import proofs.«142515_j15685220565779_1_alg».proof.Proof.Spec

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.SL.Sem

/-! ## The three projections

Each projected array is a product of the per-head weight W[h,o,·] with the row x[b,s,·], transposed to the order
(b, h, s, o), plus the bias b[h,o]. In the side-by-side layout this is entry (b, s, 512 h + o) of the row times the
512 × 4096 matrix of the eight heads, plus the row of biases. The same argument serves the three triples of arguments. -/

/-- The query projection at (b, h, s, o) is the specification's at (b, s, 512 h + o). -/
theorem proj_q (x0 : (⟨S4x2048x512, .f32⟩ : BufTy).Contents (Elt Ideal)) (x3 : (⟨S8x512x512, .f32⟩ : BufTy).Contents (Elt Ideal))
    (x4 : (⟨S8x512, .f32⟩ : BufTy).Contents (Elt Ideal)) (b : Fin 4) (h : Fin 8) (s : Fin 2048) (o : Fin 512) :
    val_main_v4 (F := Ideal) x0 x3 x4 (ix4 b h s o) = projK x0 (catW x3) (catB x4) (ix3 b s (col h o)) := by
  rw [val_main_v4_apply, val_main_v1_apply, val_main_v0_apply, val_main_v3_apply, val_main_v2_apply]
  show (∑ k : Fin 512, x3 (lidx_main_v0 (idx_main_v1 (ix4 b h s o)) k) * x0 (ridx_main_v0 (idx_main_v1 (ix4 b h s o)) k))
        + x4 (idx_main_v2 (idx_main_v3 (ix4 b h s o)))
     = (∑ e : Fin 512, x0 (ix3 b s e) * x3 (ix3 (hd (col h o)) (wi (col h o)) e)) + x4 (ix2 (hd (col h o)) (wi (col h o)))
  rw [hd_col, wi_col]
  -- the weight is read at (h, o, k): the transposition undoes the product's own order of axes
  have eW : ∀ k : Fin 512, lidx_main_v0 (idx_main_v1 (ix4 b h s o)) k = ix3 h o k := fun k => funext fun a => Fin.ext (by
    match a with
    | ⟨0, _⟩ => rfl
    | ⟨1, _⟩ => rfl
    | ⟨2, _⟩ => rfl)
  -- the row is read at (b, s, k)
  have eX : ∀ k : Fin 512, ridx_main_v0 (idx_main_v1 (ix4 b h s o)) k = ix3 b s k := fun k => funext fun a => Fin.ext (by
    match a with
    | ⟨0, _⟩ => rfl
    | ⟨1, _⟩ => rfl
    | ⟨2, _⟩ => rfl)
  -- the two broadcasts read the bias at (h, o)
  have eB : idx_main_v2 (idx_main_v3 (ix4 b h s o)) = ix2 h o := funext fun a => Fin.ext (by
    match a with
    | ⟨0, _⟩ => rfl
    | ⟨1, _⟩ => rfl)
  rw [eB]
  congr 1
  refine Finset.sum_congr rfl fun k _ => ?_
  rw [eW, eX, mul_comm]

/-- The key projection at (b, h, s, o) is the specification's at (b, s, 512 h + o). -/
theorem proj_k (x1 : (⟨S4x2048x512, .f32⟩ : BufTy).Contents (Elt Ideal)) (x5 : (⟨S8x512x512, .f32⟩ : BufTy).Contents (Elt Ideal))
    (x6 : (⟨S8x512, .f32⟩ : BufTy).Contents (Elt Ideal)) (b : Fin 4) (h : Fin 8) (s : Fin 2048) (o : Fin 512) :
    val_main_v9 (F := Ideal) x1 x5 x6 (ix4 b h s o) = projK x1 (catW x5) (catB x6) (ix3 b s (col h o)) := by
  rw [val_main_v9_apply, val_main_v6_apply, val_main_v5_apply, val_main_v8_apply, val_main_v7_apply]
  show (∑ k : Fin 512, x5 (lidx_main_v5 (idx_main_v6 (ix4 b h s o)) k) * x1 (ridx_main_v5 (idx_main_v6 (ix4 b h s o)) k))
        + x6 (idx_main_v7 (idx_main_v8 (ix4 b h s o)))
     = (∑ e : Fin 512, x1 (ix3 b s e) * x5 (ix3 (hd (col h o)) (wi (col h o)) e)) + x6 (ix2 (hd (col h o)) (wi (col h o)))
  rw [hd_col, wi_col]
  -- the weight is read at (h, o, k): the transposition undoes the product's own order of axes
  have eW : ∀ k : Fin 512, lidx_main_v5 (idx_main_v6 (ix4 b h s o)) k = ix3 h o k := fun k => funext fun a => Fin.ext (by
    match a with
    | ⟨0, _⟩ => rfl
    | ⟨1, _⟩ => rfl
    | ⟨2, _⟩ => rfl)
  -- the row is read at (b, s, k)
  have eX : ∀ k : Fin 512, ridx_main_v5 (idx_main_v6 (ix4 b h s o)) k = ix3 b s k := fun k => funext fun a => Fin.ext (by
    match a with
    | ⟨0, _⟩ => rfl
    | ⟨1, _⟩ => rfl
    | ⟨2, _⟩ => rfl)
  -- the two broadcasts read the bias at (h, o)
  have eB : idx_main_v7 (idx_main_v8 (ix4 b h s o)) = ix2 h o := funext fun a => Fin.ext (by
    match a with
    | ⟨0, _⟩ => rfl
    | ⟨1, _⟩ => rfl)
  rw [eB]
  congr 1
  refine Finset.sum_congr rfl fun k _ => ?_
  rw [eW, eX, mul_comm]

/-- The value projection at (b, h, s, o) is the specification's at (b, s, 512 h + o). -/
theorem proj_v (x2 : (⟨S4x2048x512, .f32⟩ : BufTy).Contents (Elt Ideal)) (x7 : (⟨S8x512x512, .f32⟩ : BufTy).Contents (Elt Ideal))
    (x8 : (⟨S8x512, .f32⟩ : BufTy).Contents (Elt Ideal)) (b : Fin 4) (h : Fin 8) (s : Fin 2048) (o : Fin 512) :
    val_main_v14 (F := Ideal) x2 x7 x8 (ix4 b h s o) = projK x2 (catW x7) (catB x8) (ix3 b s (col h o)) := by
  rw [val_main_v14_apply, val_main_v11_apply, val_main_v10_apply, val_main_v13_apply, val_main_v12_apply]
  show (∑ k : Fin 512, x7 (lidx_main_v10 (idx_main_v11 (ix4 b h s o)) k) * x2 (ridx_main_v10 (idx_main_v11 (ix4 b h s o)) k))
        + x8 (idx_main_v12 (idx_main_v13 (ix4 b h s o)))
     = (∑ e : Fin 512, x2 (ix3 b s e) * x7 (ix3 (hd (col h o)) (wi (col h o)) e)) + x8 (ix2 (hd (col h o)) (wi (col h o)))
  rw [hd_col, wi_col]
  -- the weight is read at (h, o, k): the transposition undoes the product's own order of axes
  have eW : ∀ k : Fin 512, lidx_main_v10 (idx_main_v11 (ix4 b h s o)) k = ix3 h o k := fun k => funext fun a => Fin.ext (by
    match a with
    | ⟨0, _⟩ => rfl
    | ⟨1, _⟩ => rfl
    | ⟨2, _⟩ => rfl)
  -- the row is read at (b, s, k)
  have eX : ∀ k : Fin 512, ridx_main_v10 (idx_main_v11 (ix4 b h s o)) k = ix3 b s k := fun k => funext fun a => Fin.ext (by
    match a with
    | ⟨0, _⟩ => rfl
    | ⟨1, _⟩ => rfl
    | ⟨2, _⟩ => rfl)
  -- the two broadcasts read the bias at (h, o)
  have eB : idx_main_v12 (idx_main_v13 (ix4 b h s o)) = ix2 h o := funext fun a => Fin.ext (by
    match a with
    | ⟨0, _⟩ => rfl
    | ⟨1, _⟩ => rfl)
  rw [eB]
  congr 1
  refine Finset.sum_congr rfl fun k _ => ?_
  rw [eW, eX, mul_comm]

/-! ## The core

Head by head, the scores Q Kᵀ at (b, h, s, k) are the sum over the 512 features of Q[b,h,s,e] K[b,h,k,e]; the output
at (b, h, s, f) is the sum over the 2048 keys k of score times V[b,h,k,f], divided by the constant. -/

/-- The divided output at (b, h, s, f) is the specification's core at (b, s, 512 h + f). -/
theorem core_eq (x0 x1 x2 : (⟨S4x2048x512, .f32⟩ : BufTy).Contents (Elt Ideal)) (x3 : (⟨S8x512x512, .f32⟩ : BufTy).Contents (Elt Ideal))
    (x4 : (⟨S8x512, .f32⟩ : BufTy).Contents (Elt Ideal)) (x5 : (⟨S8x512x512, .f32⟩ : BufTy).Contents (Elt Ideal))
    (x6 : (⟨S8x512, .f32⟩ : BufTy).Contents (Elt Ideal)) (x7 : (⟨S8x512x512, .f32⟩ : BufTy).Contents (Elt Ideal))
    (x8 : (⟨S8x512, .f32⟩ : BufTy).Contents (Elt Ideal))
    (b : Fin 4) (h : Fin 8) (s : Fin 2048) (f : Fin 512) :
    val_main_v18 (F := Ideal) x0 x1 x2 x3 x4 x5 x6 x7 x8 (ix4 b h s f)
      = attnR (Ideal.ofBits .f32 0x44000000#32) (projK x0 (catW x3) (catB x4)) (projK x1 (catW x5) (catB x6)) (projK x2 (catW x7) (catB x8)) (ix3 b s (col h f)) := by
  rw [val_main_v18_apply, val_main_v17_apply, val_main_cst_apply, val_main_v16_apply]
  show Ideal.div (∑ k : Fin 2048, val_main_v15 (F := Ideal) x0 x1 x3 x4 x5 x6 (lidx_main_v16 (ix4 b h s f) k)
          * val_main_v14 (F := Ideal) x2 x7 x8 (ridx_main_v16 (ix4 b h s f) k)) (Ideal.ofBits .f32 0x44000000#32)
     = Ideal.div (∑ k : Fin 2048, (∑ e : Fin 512, projK x0 (catW x3) (catB x4) (ix3 b s (col (hd (col h f)) e))
          * projK x1 (catW x5) (catB x6) (ix3 b k (col (hd (col h f)) e))) * projK x2 (catW x7) (catB x8) (ix3 b k (col h f))) (Ideal.ofBits .f32 0x44000000#32)
  rw [hd_col]
  -- the score is read at (b, h, s, k), the value at (b, h, k, f)
  have eS : ∀ k : Fin 2048, lidx_main_v16 (ix4 b h s f) k = ix4 b h s k := fun k => funext fun a => Fin.ext (by
    match a with
    | ⟨0, _⟩ => rfl
    | ⟨1, _⟩ => rfl
    | ⟨2, _⟩ => rfl
    | ⟨3, _⟩ => rfl)
  have eV : ∀ k : Fin 2048, ridx_main_v16 (ix4 b h s f) k = ix4 b h k f := fun k => funext fun a => Fin.ext (by
    match a with
    | ⟨0, _⟩ => rfl
    | ⟨1, _⟩ => rfl
    | ⟨2, _⟩ => rfl
    | ⟨3, _⟩ => rfl)
  -- inside a score, the query is read at (b, h, s, e) and the key at (b, h, k, e)
  have eQ : ∀ (k : Fin 2048) (e : Fin 512), lidx_main_v15 (ix4 b h s k) e = ix4 b h s e := fun k e => funext fun a => Fin.ext (by
    match a with
    | ⟨0, _⟩ => rfl
    | ⟨1, _⟩ => rfl
    | ⟨2, _⟩ => rfl
    | ⟨3, _⟩ => rfl)
  have eK : ∀ (k : Fin 2048) (e : Fin 512), ridx_main_v15 (ix4 b h s k) e = ix4 b h k e := fun k e => funext fun a => Fin.ext (by
    match a with
    | ⟨0, _⟩ => rfl
    | ⟨1, _⟩ => rfl
    | ⟨2, _⟩ => rfl
    | ⟨3, _⟩ => rfl)
  congr 1
  refine Finset.sum_congr rfl fun k _ => ?_
  rw [eS, eV, val_main_v15_apply, proj_v]
  congr 1
  refine Finset.sum_congr rfl fun e _ => ?_
  rw [eQ, eK, proj_q, proj_k]

/-! ## The heads laid side by side

Transposing to (b, s, h, f) and flattening the last two axes puts head h, feature f in column 512 h + f: column j
of the flattened row is read at head j / 512, feature j % 512. -/

/-- The flattened core at (b, s, j) is the specification's core at (b, s, j). -/
theorem flat_eq (x0 x1 x2 : (⟨S4x2048x512, .f32⟩ : BufTy).Contents (Elt Ideal)) (x3 : (⟨S8x512x512, .f32⟩ : BufTy).Contents (Elt Ideal))
    (x4 : (⟨S8x512, .f32⟩ : BufTy).Contents (Elt Ideal)) (x5 : (⟨S8x512x512, .f32⟩ : BufTy).Contents (Elt Ideal))
    (x6 : (⟨S8x512, .f32⟩ : BufTy).Contents (Elt Ideal)) (x7 : (⟨S8x512x512, .f32⟩ : BufTy).Contents (Elt Ideal))
    (x8 : (⟨S8x512, .f32⟩ : BufTy).Contents (Elt Ideal))
    (b : Fin 4) (s : Fin 2048) (j : Fin 4096) :
    val_main_v20 (F := Ideal) x0 x1 x2 x3 x4 x5 x6 x7 x8 (ix3 b s j)
      = attnR (Ideal.ofBits .f32 0x44000000#32) (projK x0 (catW x3) (catB x4)) (projK x1 (catW x5) (catB x6)) (projK x2 (catW x7) (catB x8)) (ix3 b s j) := by
  rw [val_main_v20_apply, val_main_v19_apply]
  have eI : idx_main_v19 (idx_main_v20 (ix3 b s j)) = ix4 b (hd j) s (wi j) := funext fun a => Fin.ext (by
    have hb := b.isLt
    have hs := s.isLt
    have hj := j.isLt
    match a with
    | ⟨0, _⟩ => show ((b.val * 2048 + s.val) * 4096 + j.val) / 8388608 = b.val; omega
    | ⟨1, _⟩ => show ((b.val * 2048 + s.val) * 4096 + j.val) / 512 % 8 = j.val / 512; omega
    | ⟨2, _⟩ => show ((b.val * 2048 + s.val) * 4096 + j.val) / 4096 % 2048 = s.val; omega
    | ⟨3, _⟩ => show ((b.val * 2048 + s.val) * 4096 + j.val) % 512 = j.val % 512; omega)
  rw [eI, core_eq, col_hd_wi]

/-! ## The output map -/

/-- The reference's result, read one operation at a time, is the specification's function of the eleven arguments. -/
theorem result_eq (x0 x1 x2 : (⟨S4x2048x512, .f32⟩ : BufTy).Contents (Elt Ideal)) (x3 : (⟨S8x512x512, .f32⟩ : BufTy).Contents (Elt Ideal))
    (x4 : (⟨S8x512, .f32⟩ : BufTy).Contents (Elt Ideal)) (x5 : (⟨S8x512x512, .f32⟩ : BufTy).Contents (Elt Ideal))
    (x6 : (⟨S8x512, .f32⟩ : BufTy).Contents (Elt Ideal)) (x7 : (⟨S8x512x512, .f32⟩ : BufTy).Contents (Elt Ideal))
    (x8 : (⟨S8x512, .f32⟩ : BufTy).Contents (Elt Ideal)) (x9 : (⟨S512x4096, .f32⟩ : BufTy).Contents (Elt Ideal))
    (x10 : (⟨S512, .f32⟩ : BufTy).Contents (Elt Ideal)) :
    val_main_v24 (F := Ideal) x0 x1 x2 x3 x4 x5 x6 x7 x8 x9 x10
      = referenceResult (Ideal.ofBits .f32 0x44000000#32) x0 x1 x2 x3 x4 x5 x6 x7 x8 x9 x10 := by
  funext i
  obtain ⟨b, s, o, rfl⟩ : ∃ (b : Fin 4) (s : Fin 2048) (o : Fin 512), i = ix3 b s o := ⟨i 0, i 1, i 2, eq_ix3 i⟩
  rw [val_main_v24_apply, val_main_v21_apply, val_main_v23_apply, val_main_v22_apply]
  show (∑ k : Fin 4096, val_main_v20 (F := Ideal) x0 x1 x2 x3 x4 x5 x6 x7 x8 (lidx_main_v21 (ix3 b s o) k) * x9 (ridx_main_v21 (ix3 b s o) k))
        + x10 (idx_main_v22 (idx_main_v23 (ix3 b s o)))
     = (∑ j : Fin 4096, attnR (Ideal.ofBits .f32 0x44000000#32) (projK x0 (catW x3) (catB x4)) (projK x1 (catW x5) (catB x6)) (projK x2 (catW x7) (catB x8)) (ix3 b s j) * x9 (ix2 o j)) + x10 (ix1 o)
  -- the flattened core is read at (b, s, k), the output weight at (o, k), the bias at o
  have eX : ∀ k : Fin 4096, lidx_main_v21 (ix3 b s o) k = ix3 b s k := fun k => funext fun a => Fin.ext (by
    match a with
    | ⟨0, _⟩ => rfl
    | ⟨1, _⟩ => rfl
    | ⟨2, _⟩ => rfl)
  have eW : ∀ k : Fin 4096, ridx_main_v21 (ix3 b s o) k = ix2 o k := fun k => funext fun a => Fin.ext (by
    match a with
    | ⟨0, _⟩ => rfl
    | ⟨1, _⟩ => rfl)
  have eB : idx_main_v22 (idx_main_v23 (ix3 b s o)) = ix1 o := funext fun a => Fin.ext (by
    match a with
    | ⟨0, _⟩ => rfl)
  rw [eB]
  congr 1
  refine Finset.sum_congr rfl fun k _ => ?_
  rw [eX, eW, flat_eq]

end Cert.ReferenceIdeal.RefValue

end
-- ==== Proof.Algebra.lean ====
import proofs.«142515_j15685220565779_1_alg».proof.Proof.Spec
import Idealize.ShloMosaic.PureOps.Ideal.Laws

noncomputable section

namespace Cert.Spec

open Idealize.ShloMosaic Idealize.ShloMosaic.ValueIdx

/-- The kernel's scale is the real 2⁻⁹ and the reference's divisor the real 512. The first word has sign 0,
    exponent field 118 and an empty fraction: 2²³ · 2^(118 − 127 − 23) = 2⁻⁹. The second has exponent field 136:
    2²³ · 2^(136 − 127 − 23) = 2⁹. -/
theorem scale_eq : Ideal.ofBits .f32 0x3B000000#32 = ((1 / 512 : ℝ) : EReal) := by
  simp [Ideal.ofBits, Ideal.ieee, -EReal.coe_mul]; norm_num
theorem divisor_eq : Ideal.ofBits .f32 0x44000000#32 = ((512 : ℝ) : EReal) := by
  simp [Ideal.ofBits, Ideal.ieee, -EReal.coe_mul]; norm_num

/-- The embedding of the reals in the extended reals goes through a finite sum: it sends 0 to 0 and a sum of two
    reals to the sum of their images, so induction on the index set does it. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals, q · (kᵀ v · c) = ((q kᵀ) v) · c, entry by entry: both sides are the double sum of
    q e · k s e · v s · c, taken in the two orders. -/
theorem real_assoc {ι κ : Type} [Fintype ι] [Fintype κ] (q : ι → ℝ) (k : κ → ι → ℝ) (v : κ → ℝ) :
    ∑ e, q e * ((∑ s, k s e * v s) * (1 / 512)) = (∑ s, (∑ e, q e * k s e) * v s) * (1 / 512) := by
  calc ∑ e, q e * ((∑ s, k s e * v s) * (1 / 512))
      = ∑ e, ∑ s, q e * k s e * v s * (1 / 512) := by
        refine Finset.sum_congr rfl fun e _ => ?_
        rw [Finset.sum_mul, Finset.mul_sum]
        exact Finset.sum_congr rfl fun s _ => by ring
    _ = ∑ s, ∑ e, q e * k s e * v s * (1 / 512) := Finset.sum_comm
    _ = (∑ s, (∑ e, q e * k s e) * v s) * (1 / 512) := by
        rw [Finset.sum_mul]
        refine Finset.sum_congr rfl fun s _ => ?_
        rw [Finset.sum_mul, Finset.sum_mul]

/-- The same law for extended reals that are images of reals: every product and sum is the image of the real
    product or sum, so the two sides are the images of the two sides of the real law. -/
theorem ereal_assoc {ι κ : Type} [Fintype ι] [Fintype κ] (q : ι → ℝ) (k : κ → ι → ℝ) (v : κ → ℝ) :
    ∑ e, (q e : EReal) * ((∑ s, (k s e : EReal) * (v s : EReal)) * ((1 / 512 : ℝ) : EReal))
      = (∑ s, (∑ e, (q e : EReal) * (k s e : EReal)) * (v s : EReal)) * ((1 / 512 : ℝ) : EReal) := by
  simp only [← EReal.coe_mul, ← coe_sum]
  rw [real_assoc]

theorem catW_isReal {W : W3.Idx → EReal} (h : IsReal W) : IsReal (catW W) := fun i => h _
theorem catB_isReal {b : B2.Idx → EReal} (h : IsReal b) : IsReal (catB b) := fun i => h _

/-- A projection of real arrays is real. -/
theorem projK_isReal {x : A3.Idx → EReal} {Wc : C2.Idx → EReal} {bc : R2.Idx → EReal}
    (hx : IsReal x) (hW : IsReal Wc) (hb : IsReal bc) : IsReal (projK x Wc bc) := by
  intro i
  have hx' : ∀ j, ∃ r : ℝ, x j = (r : EReal) := hx
  have hW' : ∀ j, ∃ r : ℝ, Wc j = (r : EReal) := hW
  have hb' : ∀ j, ∃ r : ℝ, bc j = (r : EReal) := hb
  choose xr hxr using hx'
  choose Wr hWr using hW'
  choose br hbr using hb'
  simp only [projK, hxr, hWr, hbr, ← EReal.coe_mul, ← coe_sum, ← EReal.coe_add]
  exact ⟨_, rfl⟩

/-- On real arrays the kernel's core Q (Kᵀ V · 2⁻⁹) is the reference's (Q Kᵀ) V / 512. -/
theorem attn_eq {Q K V : P3.Idx → EReal} (hQ : IsReal Q) (hK : IsReal K) (hV : IsReal V) :
    attnK (Ideal.ofBits .f32 0x3B000000#32) Q K V = attnR (Ideal.ofBits .f32 0x44000000#32) Q K V := by
  have hQ' : ∀ j, ∃ r : ℝ, Q j = (r : EReal) := hQ
  have hK' : ∀ j, ∃ r : ℝ, K j = (r : EReal) := hK
  have hV' : ∀ j, ∃ r : ℝ, V j = (r : EReal) := hV
  choose q hq using hQ'
  choose k hk using hK'
  choose v hv using hV'
  funext i
  rw [scale_eq, divisor_eq]
  simp only [attnK, attnR, hq, hk, hv]
  rw [Ideal.div_coe (by norm_num : (512 : ℝ) ≠ 0)]
  exact ereal_assoc (fun e => q (ix3 (i 0) (i 1) (col (hd (i 2)) e)))
    (fun s e => k (ix3 (i 0) s (col (hd (i 2)) e))) (fun s => v (ix3 (i 0) s (i 2)))

/-- On real arguments the two programs' results are one function. -/
theorem result_eq {q k v : A3.Idx → EReal} {Wq : W3.Idx → EReal} {bq : B2.Idx → EReal} {Wk : W3.Idx → EReal} {bk : B2.Idx → EReal}
    {Wv : W3.Idx → EReal} {bv : B2.Idx → EReal} (Wo : O2.Idx → EReal) (bo : O1.Idx → EReal)
    (hq : IsReal q) (hk : IsReal k) (hv : IsReal v) (hWq : IsReal Wq) (hbq : IsReal bq) (hWk : IsReal Wk) (hbk : IsReal bk)
    (hWv : IsReal Wv) (hbv : IsReal bv) :
    kernelResult (Ideal.ofBits .f32 0x3B000000#32) q k v Wq bq Wk bk Wv bv Wo bo
      = referenceResult (Ideal.ofBits .f32 0x44000000#32) q k v Wq bq Wk bk Wv bv Wo bo := by
  unfold kernelResult referenceResult
  rw [attn_eq (projK_isReal hq (catW_isReal hWq) (catB_isReal hbq)) (projK_isReal hk (catW_isReal hWk) (catB_isReal hbk))
    (projK_isReal hv (catW_isReal hWv) (catB_isReal hbv))]

end Cert.Spec

end
-- ==== Proof.Finite.lean ====
import proofs.«142515_j15685220565779_1_alg».proof.Defs
import proofs.«142515_j15685220565779_1_alg».proof.Proof.Gen.Pre_finite_inputs
import proofs.«142515_j15685220565779_1_alg».proof.Proof.Spec
import Idealize.ShloMosaic.Lib.ReduceAll

noncomputable section

namespace Cert.Finite

open Cert.Spec Idealize.ShloMosaic Idealize.ShloMosaic.TcCoe Idealize.ShloMosaic.ValueIdx Idealize.SL.Sem

/-- A shape of rank zero has exactly one index. -/
instance subsingleton_scalar_idx : Subsingleton Cert.Pre_finite_inputs.S_.Idx :=
  ⟨fun a b => funext fun d => d.elim0⟩

/-- An extended real whose absolute value max x (-x) lies strictly below +∞ is a real number:
    at either infinity the absolute value is +∞ itself. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The word 0x7F800000 denotes +∞. -/
theorem inf_word : Ideal.ofBits .f32 0x7F800000#32 = (⊤ : EReal) := by
  simp [Ideal.ofBits, Ideal.ieee]

/-- all(|x| < +∞), read back: if the comparison of |x| against a splat of +∞, and-reduced over every
    axis into a result of one index, is 1, then every entry of x is a real number. General in the array's
    shape, the splat's source shape, the reduced axes, the reduction's start value and its result shape. -/
theorem isReal_of_all_abs_lt_inf {S T U V : Shape} [Subsingleton T.Idx] {axes : List (Fin S.rank)}
    (x : FVec Ideal S .f32) (dims : Fin V.rank → Fin S.rank) (hb : V.BroadcastsInDim S dims)
    (hr : S.ReducesTo axes T) (hu : 0 < U.numel) (init : IVec U 1) (j : T.Idx)
    (e : Host.reduce IntOp.andi
        (cmpf .olt (Host.absf x) (broadcastInDim S dims hb (constant (F := Ideal) V .f32 0x7F800000#32))) init hr hu j = 1#1) :
    IsReal (S := S) x := by
  intro i
  have hi := Host.reduce_andi_all _ init hr hu j e i
  have hlt : Ideal.cmp .olt (max (x i) (-(x i))) (Ideal.ofBits .f32 0x7F800000#32) = 1#1 := hi
  rw [inf_word] at hlt
  apply exists_real_of_abs_lt_top
  by_contra hn
  have : Ideal.cmp .olt (max (x i) (-(x i))) ⊤ = 0#1 := by
    simp [Ideal.cmp, hn]
  rw [this] at hlt
  exact absurd hlt (by decide)

/-- Under the precondition every entry of the nine arrays the attention core reads is a real number. -/
theorem inputs_real [hPre : Cert.Pre_finite_inputs.Facts]
    (x0 x1 x2 : FVec Ideal Cert.Pre_finite_inputs.S4x2048x512 .f32) (x3 : FVec Ideal Cert.Pre_finite_inputs.S8x512x512 .f32)
    (x4 : FVec Ideal Cert.Pre_finite_inputs.S8x512 .f32) (x5 : FVec Ideal Cert.Pre_finite_inputs.S8x512x512 .f32)
    (x6 : FVec Ideal Cert.Pre_finite_inputs.S8x512 .f32) (x7 : FVec Ideal Cert.Pre_finite_inputs.S8x512x512 .f32)
    (x8 : FVec Ideal Cert.Pre_finite_inputs.S8x512 .f32) (x9 : FVec Ideal Cert.Pre_finite_inputs.S512x4096 .f32)
    (x10 : FVec Ideal Cert.Pre_finite_inputs.S512 .f32)
    (h : Cert.Pre_finite_inputs.fn (F := Ideal) x0 x1 x2 x3 x4 x5 x6 x7 x8 x9 x10 = (fun _ => 1#1)) :
    IsReal (S := A3) x0 ∧ IsReal (S := A3) x1 ∧ IsReal (S := A3) x2 ∧ IsReal (S := W3) x3 ∧ IsReal (S := B2) x4 ∧ IsReal (S := W3) x5
      ∧ IsReal (S := B2) x6 ∧ IsReal (S := W3) x7 ∧ IsReal (S := B2) x8 := by
  -- the predicate at its one index, opened into its eleven and-ed reductions
  have h0 := congrFun h ValueIdx.ix0
  simp only [Cert.Pre_finite_inputs.fn, Cert.Pre_finite_inputs.fn_part1, Cert.Pre_finite_inputs.fn_part2,
    Cert.Pre_finite_inputs.fn_part3, andi, IntOp.andi_eq_one] at h0
  obtain ⟨⟨⟨⟨⟨⟨⟨⟨⟨⟨e0, e1⟩, e2⟩, e3⟩, e4⟩, e5⟩, e6⟩, e7⟩, e8⟩, _⟩, _⟩ := h0
  exact ⟨isReal_of_all_abs_lt_inf x0 _ _ _ _ _ _ e0, isReal_of_all_abs_lt_inf x1 _ _ _ _ _ _ e1,
    isReal_of_all_abs_lt_inf x2 _ _ _ _ _ _ e2, isReal_of_all_abs_lt_inf x3 _ _ _ _ _ _ e3,
    isReal_of_all_abs_lt_inf x4 _ _ _ _ _ _ e4, isReal_of_all_abs_lt_inf x5 _ _ _ _ _ _ e5,
    isReal_of_all_abs_lt_inf x6 _ _ _ _ _ _ e6, isReal_of_all_abs_lt_inf x7 _ _ _ _ _ _ e7,
    isReal_of_all_abs_lt_inf x8 _ _ _ _ _ _ e8⟩

end Cert.Finite

end
-- ==== Proof.lean ====
/-
  The certificate of a multi-head attention WITHOUT softmax, computed by three kernels against a plain reference.

  The reference computes, head by head, ((Q Kᵀ) V) / 512 from the projected arrays Q, K, V and sends the heads, laid
  side by side, through an output linear map. The kernel's program projects with the eight heads' weights laid side
  by side (first region), computes Q (Kᵀ V · 2⁻⁹) head by head (second region) and applies the output map (third
  region). At the ideal instance every change of float format is the identity and every matrix product a plain sum,
  so the two results differ only by the bracketing of the triple product and by 2⁻⁹ against a division by 512: one
  number whenever all entries are real, which the precondition gives (the law is false at the infinities, so the
  precondition is used).

  The three frames: the two kernel programs' are the generated ones; the reference's is its generated run with the
  result dropped. The idealization rewrote nothing, so `preserves` is trivial. For `algebraic` the kernel's run is
  the generated launch called again with the result array named (KernelRun), its contents read region by region
  back to the arguments (Region0, Region1, Region2, HostSide, Chain) as the specification's function (Spec); the
  reference's run is the generated one, read one operation at a time to the same specification (RefValue); the two
  functions agree on real arguments (Algebra), which the precondition provides (Finite).
-/
import proofs.«142515_j15685220565779_1_alg».proof.Defs
import proofs.«142515_j15685220565779_1_alg».proof.Proof.Gen.Kernel
import proofs.«142515_j15685220565779_1_alg».proof.Proof.Gen.Kernel.Frame
import proofs.«142515_j15685220565779_1_alg».proof.Proof.Gen.KernelIdeal
import proofs.«142515_j15685220565779_1_alg».proof.Proof.Gen.KernelIdeal.Frame
import proofs.«142515_j15685220565779_1_alg».proof.Proof.Gen.ReferenceIdeal
import proofs.«142515_j15685220565779_1_alg».proof.Proof.Gen.Pre_finite_inputs
import proofs.«142515_j15685220565779_1_alg».proof.Proof.Gen.ReferenceIdeal.Run
import proofs.«142515_j15685220565779_1_alg».proof.Proof.Gen.ReferenceIdeal.Read
import proofs.«142515_j15685220565779_1_alg».proof.Proof.KernelRun
import proofs.«142515_j15685220565779_1_alg».proof.Proof.Chain
import proofs.«142515_j15685220565779_1_alg».proof.Proof.RefValue
import proofs.«142515_j15685220565779_1_alg».proof.Proof.Algebra
import proofs.«142515_j15685220565779_1_alg».proof.Proof.Finite
import Idealize.ShloMosaic.Adequacy
import Idealize.ShloMosaic.Init

noncomputable section

namespace Cert.Proof

open Idealize.ShloMosaic Idealize.ShloMosaic.TcCoe Idealize.SL.Sem

section Claims

variable [hPre : Cert.Pre_finite_inputs.Facts]

/-- The two kernel programs run, fault-free, and leave their arguments: the generated frames. -/
theorem frame_k [Cert.Kernel.Facts] : Cert.frame_Kernel := fun m ρ _ => Cert.Kernel.Gen.frame m ρ
theorem frame_ki [Cert.KernelIdeal.Facts] : Cert.frame_KernelIdeal := fun m ρ _ => Cert.KernelIdeal.Gen.frame m ρ
/-- The reference runs: its generated run with the result dropped. -/
theorem frame_ri [Cert.ReferenceIdeal.Facts] : Cert.frame_ReferenceIdeal := fun m ρ _ =>
  (θ_run Cert.ReferenceIdeal.defs _ _).mono (fun _ h c => (h c).2) (Cert.ReferenceIdeal.Value.run (F := Ideal) m ρ)

/-- Both idealized programs end with the same result array: the specification's function of the arguments, in the
    kernel's bracketing on one side and the reference's on the other, equal because the precondition makes every
    entry the attention core reads a real number. -/
theorem algebraic [Cert.KernelIdeal.Facts] [Cert.ReferenceIdeal.Facts] : Cert.algebraic_KernelIdeal_ReferenceIdeal := by
  intro m ρ m' ρ' hpre hagree
  refine ⟨fun c => Cert.Spec.kernelResult (Ideal.ofBits .f32 0x3B000000#32) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v24_eq, Cert.ReferenceIdeal.RefValue.result_eq, h0, h1, h2, h3, h4, h5, h6, h7, h8, h9, h10]
    obtain ⟨r0, r1, r2, r3, r4, r5, r6, r7, r8⟩ := Cert.Finite.inputs_real _ _ _ _ _ _ _ _ _ _ _ (hpre c)
    exact (Cert.Spec.result_eq _ _ r0 r1 r2 r3 r4 r5 r6 r7 r8).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
